-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768x24x24 : Shape := ⟨4, ![128, 768, 24, 24]⟩
abbrev S100x768 : Shape := ⟨2, ![100, 768]⟩
abbrev S768 : Shape := ⟨1, ![768]⟩
abbrev S_ : Shape := ⟨0, ![]⟩

class Facts : Prop where
  bcast_S_S128x768x24x24 : S_.BroadcastsInDim S128x768x24x24 (![] : Fin 0 → Fin S128x768x24x24.rank)
  reducesTo_S128x768x24x24_S_d0_1_2_3 : S128x768x24x24.ReducesTo [0, 1, 2, 3] S_
  h_S_ : 0 < S_.numel
  bcast_S_S100x768 : S_.BroadcastsInDim S100x768 (![] : Fin 0 → Fin S100x768.rank)
  reducesTo_S100x768_S_d0_1 : S100x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S128x768x24x24 .f32) (main_arg1 : FVec F S100x768 .f32) (main_arg2 : FVec F S100x768 .f32) (main_arg3 : FVec F S768 .f32) (main_arg4 : FVec F S768 .f32) : IVec S_ 1 :=
  let main_v0 : FVec F S128x768x24x24 .f32 := Host.absf main_arg0
  let main_cst : FVec F S_ .f32 := constant S_ .f32 0x7F800000#32
  let main_v1 : FVec F S128x768x24x24 .f32 := broadcastInDim S128x768x24x24 ![] bcast_S_S128x768x24x24 main_cst
  let main_v2 : IVec S128x768x24x24 1 := cmpf .olt main_v0 main_v1
  let main_c : IVec S_ 1 := constantI S_ 1 1#1
  let main_v3 : IVec S_ 1 := (fun x v => Host.reduce IntOp.andi x v reducesTo_S128x768x24x24_S_d0_1_2_3 h_S_) main_v2 main_c
  let main_v4 : FVec F S100x768 .f32 := Host.absf main_arg1
  let main_cst_0 : FVec F S_ .f32 := constant S_ .f32 0x7F800000#32
  let main_v5 : FVec F S100x768 .f32 := broadcastInDim S100x768 ![] bcast_S_S100x768 main_cst_0
  let main_v6 : IVec S100x768 1 := cmpf .olt main_v4 main_v5
  let main_c_1 : IVec S_ 1 := constantI S_ 1 1#1
  let main_v7 : IVec S_ 1 := (fun x v => Host.reduce IntOp.andi x v reducesTo_S100x768_S_d0_1 h_S_) main_v6 main_c_1
  let main_v8 : IVec S_ 1 := andi main_v3 main_v7
  let main_v9 : FVec F S100x768 .f32 := Host.absf main_arg2
  let main_cst_2 : FVec F S_ .f32 := constant S_ .f32 0x7F800000#32
  let main_v10 : FVec F S100x768 .f32 := broadcastInDim S100x768 ![] bcast_S_S100x768 main_cst_2
  let main_v11 : IVec S100x768 1 := cmpf .olt main_v9 main_v10
  let main_c_3 : IVec S_ 1 := constantI S_ 1 1#1
  let main_v12 : IVec S_ 1 := (fun x v => Host.reduce IntOp.andi x v reducesTo_S100x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S128x768x24x24 : Shape := ⟨4, ![128, 768, 24, 24]⟩
abbrev S100x768 : Shape := ⟨2, ![100, 768]⟩
abbrev S768 : Shape := ⟨1, ![768]⟩
abbrev S128x768x576 : Shape := ⟨3, ![128, 768, 576]⟩
abbrev S24x768 : Shape := ⟨2, ![24, 768]⟩
abbrev S768x24 : Shape := ⟨2, ![768, 24]⟩
abbrev S768x24x1 : Shape := ⟨3, ![768, 24, 1]⟩
abbrev S768x1x24 : Shape := ⟨3, ![768, 1, 24]⟩
abbrev S768x24x24 : Shape := ⟨3, ![768, 24, 24]⟩
abbrev S768x576 : Shape := ⟨2, ![768, 576]⟩
abbrev S768x1 : Shape := ⟨2, ![768, 1]⟩
abbrev S128x16x576 : Shape := ⟨3, ![128, 16, 576]⟩
abbrev S16x576 : Shape := ⟨2, ![16, 576]⟩
abbrev S16x1 : Shape := ⟨2, ![16, 1]⟩
abbrev S1x16x576 : Shape := ⟨3, ![1, 16, 576]⟩
abbrev S16 : Shape := ⟨1, ![16]⟩
abbrev S1x16x1 : Shape := ⟨3, ![1, 16, 1]⟩

abbrev nBuf : Space → Nat
  | .hbm => 20
  | .vmem => 10
  | .smem => 0
  | _ => 0

abbrev bufTy : (tb : Table) → Fin (tcTables nBuf tb) → BufTy
  | .hbm, ⟨0, _⟩ => ⟨S128x768x24x24, .f32⟩
  | .hbm, ⟨1, _⟩ => ⟨S100x768, .f32⟩
  | .hbm, ⟨2, _⟩ => ⟨S100x768, .f32⟩
  | .hbm, ⟨3, _⟩ => ⟨S768, .f32⟩
  | .hbm, ⟨4, _⟩ => ⟨S768, .f32⟩
  | .hbm, ⟨5, _⟩ => ⟨S128x768x576, .f32⟩
  | .hbm, ⟨6, _⟩ => ⟨S24x768, .f32⟩
  | .hbm, ⟨7, _⟩ => ⟨S768x24, .f32⟩
  | .hbm, ⟨8, _⟩ => ⟨S24x768, .f32⟩
  | .hbm, ⟨9, _⟩ => ⟨S768x24, .f32⟩
  | .hbm, ⟨10, _⟩ => ⟨S768x24x1, .f32⟩
  | .hbm, ⟨11, _⟩ => ⟨S768x1x24, .f32⟩
  | .hbm, ⟨12, _⟩ => ⟨S768x24x24, .f32⟩
  | .hbm, ⟨13, _⟩ => ⟨S768x24x24, .f32⟩
  | .hbm, ⟨14, _⟩ => ⟨S768x24x24, .f32⟩
  | .hbm, ⟨15, _⟩ => ⟨S768x576, .f32⟩
  | .hbm, ⟨16, _⟩ => ⟨S768x1, .f32⟩
  | .hbm, ⟨17, _⟩ => ⟨S768x1, .f32⟩
  | .hbm, ⟨18, _⟩ => ⟨S128x768x576, .f32⟩
  | .hbm, ⟨19, _⟩ => ⟨S128x768x24x24, .f32⟩
  | .local _ .vmem, ⟨0, _⟩ => ⟨S128x16x576, .f32⟩
  | .local _ .vmem, ⟨1, _⟩ => ⟨S128x16x576, .f32⟩
  | .local _ .vmem, ⟨2, _⟩ => ⟨S16x576, .f32⟩
  | .local _ .vmem, ⟨3, _⟩ => ⟨S16x576, .f32⟩
  | .local _ .vmem, ⟨4, _⟩ => ⟨S16x1, .f32⟩
  | .local _ .vmem, ⟨5, _⟩ => ⟨S16x1, .f32⟩
  | .local _ .vmem, ⟨6, _⟩ => ⟨S16x1, .f32⟩
  | .local _ .vmem, ⟨7, _⟩ => ⟨S16x1, .f32⟩
  | .local _ .vmem, ⟨8, _⟩ => ⟨S128x16x576, .f32⟩
  | .local _ .vmem, ⟨9, _⟩ => ⟨S128x16x576, .f32⟩
  | _, _ => ⟨S128x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x16x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x768x24x24_S128x768x576 : S128x768x24x24.ShapeCasts S128x768x576
  slices_S100x768_S24x768_0_0 : S100x768.Slices ![0, 0] S24x768
  shapeCasts_S24x768_S768x24 : S24x768.ShapeCasts S768x24
  bcast_S768x24_S768x24x1_0_1 : S768x24.BroadcastsInDim S768x24x1 (![0, 1] : Fin 2 → Fin S768x24x1.rank)
  bcast_S768x24_S768x1x24_0_2 : S768x24.BroadcastsInDim S768x1x24 (![0, 2] : Fin 2 → Fin S768x1x24.rank)
  bcast_S768x24x1_S768x24x24_0_1_2 : S768x24x1.BroadcastsInDim S768x24x24 (![0, 1, 2] : Fin 3 → Fin S768x24x24.rank)
  bcast_S768x1x24_S768x24x24_0_1_2 : S768x1x24.BroadcastsInDim S768x24x24 (![0, 1, 2] : Fin 3 → Fin S768x24x24.rank)
  shapeCasts_S768x24x24_S768x576 : S768x24x24.ShapeCasts S768x576
  shapeCasts_S768_S768x1 : S768.ShapeCasts S768x1
  shapeCasts_S128x768x576_S128x768x24x24 : S128x768x576.ShapeCasts S128x768x24x24
  inb_S128x16x576_S128x16x576_0_0_0 : ∀ a, (![0, 0, 0] : Fin 3 → Nat) a + S128x16x576.size a ≤ S128x16x576.size a
  h_S128x16x576 : 0 < S128x16x576.numel
  shapeCasts_S128x16x576_S128x16x576 : S128x16x576.ShapeCasts S128x16x576
  inb_S16x576_S16x576_0_0 : ∀ a, (![0, 0] : Fin 2 → Nat) a + S16x576.size a ≤ S16x576.size a
  h_S16x576 : 0 < S16x576.numel
  shapeCasts_S16x576_S16x576 : S16x576.ShapeCasts S16x576
  shapeCasts_S16x576_S1x16x576 : S16x576.ShapeCasts S1x16x576
  broadcasts_S1x16x576_S128x16x576 : S1x16x576.Broadcasts S128x16x576
  reduces_S128x16x576_S16 : S128x16x576.Reduces [0, 2] S16
  shapeCasts_S16_S1x16x1 : S16.ShapeCasts S1x16x1
  broadcasts_S1x16x1_S128x16x576 : S1x16x1.Broadcasts S128x16x576
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S16x1_S1x16x1 : S16x1.ShapeCasts S1x16x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x576.size a ≤ S128x768x576.size a
  hwx0_0 : ∀ i : grid0.Coords, EltTy.bits .f32 = 32 ∨ (Rect.block (s := S128x768x576) S128x16x576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x576.size a ≤ S768x576.size a
  hwx0_1 : ∀ i : grid0.Coords, EltTy.bits .f32 = 32 ∨ (Rect.block (s := S768x576) S16x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S768x1.size a
  hwx0_2 : ∀ i : grid0.Coords, EltTy.bits .f32 = 32 ∨ (Rect.block (s := S768x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S768x1.size a
  hwx0_3 : ∀ i : grid0.Coords, EltTy.bits .f32 = 32 ∨ (Rect.block (s := S768x1) S16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16x576.size a ≤ S128x768x576.size a
  hwx0_4 : ∀ i : grid0.Coords, EltTy.bits .f32 = 32 ∨ (Rect.block (s := S128x768x576) S128x16x576.size (cc0_transform_4 i) (hinb0_4 i)).WholeWords (EltTy.packing .f32)

variable [Facts₀]

abbrev win0_0 : Pipeline.Window sig grid0 :=
  Pipeline.Window.ofSpec (Memref.whole main_call0_v0) S128x16x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v10) S16x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S16x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13) S128x16x576.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x768x24x24 : Shape := ⟨4, ![128, 768, 24, 24]⟩
abbrev S100x768 : Shape := ⟨2, ![100, 768]⟩
abbrev S768 : Shape := ⟨1, ![768]⟩
abbrev S24 : Shape := ⟨1, ![24]⟩
abbrev S_ : Shape := ⟨0, ![]⟩
abbrev S24x1 : Shape := ⟨2, ![24, 1]⟩
abbrev S1 : Shape := ⟨1, ![1]⟩
abbrev S1x1 : Shape := ⟨2, ![1, 1]⟩
abbrev S24x768 : Shape := ⟨2, ![24, 768]⟩
abbrev S1x768x24x1 : Shape := ⟨4, ![1, 768, 24, 1]⟩
abbrev S1x768x1x24 : Shape := ⟨4, ![1, 768, 1, 24]⟩
abbrev S1x768x1x1 : Shape := ⟨4, ![1, 768, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S128x768x24x24, .f32⟩
  | .hbm, ⟨1, _⟩ => ⟨S100x768, .f32⟩
  | .hbm, ⟨2, _⟩ => ⟨S100x768, .f32⟩
  | .hbm, ⟨3, _⟩ => ⟨S768, .f32⟩
  | .hbm, ⟨4, _⟩ => ⟨S768, .f32⟩
  | .hbm, ⟨5, _⟩ => ⟨S24, .i32⟩
  | .hbm, ⟨6, _⟩ => ⟨S_, .i32⟩
  | .hbm, ⟨7, _⟩ => ⟨S24, .i32⟩
  | .hbm, ⟨8, _⟩ => ⟨S24, .i1⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S24, .i32⟩
  | .hbm, ⟨13, _⟩ => ⟨S24x1, .i32⟩
  | .hbm, ⟨14, _⟩ => ⟨S1, .i32⟩
  | .hbm, ⟨15, _⟩ => ⟨S_, .i32⟩
  | .hbm, ⟨16, _⟩ => ⟨S24x1, .i32⟩
  | .hbm, ⟨17, _⟩ => ⟨S24x1, .i1⟩
  | .hbm, ⟨18, _⟩ => ⟨S1x1, .i32⟩
  | .hbm, ⟨19, _⟩ => ⟨S24x1, .i32⟩
  | .hbm, ⟨20, _⟩ => ⟨S24x1, .i1⟩
  | .hbm, ⟨21, _⟩ => ⟨S24x1, .i1⟩
  | .hbm, ⟨22, _⟩ => ⟨S_, .i1⟩
  | .hbm, ⟨23, _⟩ => ⟨S24, .i1⟩
  | .hbm, ⟨24, _⟩ => ⟨S24x768, .f32⟩
  | .hbm, ⟨25, _⟩ => ⟨S24x768, .i1⟩
  | .hbm, ⟨26, _⟩ => ⟨S_, .f32⟩
  | .hbm, ⟨27, _⟩ => ⟨S24x768, .f32⟩
  | .hbm, ⟨28, _⟩ => ⟨S24x768, .f32⟩
  | .hbm, ⟨29, _⟩ => ⟨S1x768x24x1, .f32⟩
  | .hbm, ⟨30, _⟩ => ⟨S128x768x24x24, .f32⟩
  | .hbm, ⟨31, _⟩ => ⟨S128x768x24x24, .f32⟩
  | .hbm, ⟨32, _⟩ => ⟨S24, .i32⟩
  | .hbm, ⟨33, _⟩ => ⟨S_, .i32⟩
  | .hbm, ⟨34, _⟩ => ⟨S24, .i32⟩
  | .hbm, ⟨35, _⟩ => ⟨S24, .i1⟩
  | .hbm, ⟨36, _⟩ => ⟨S_, .i32⟩
  | .hbm, ⟨37, _⟩ => ⟨S24, .i32⟩
  | .hbm, ⟨38, _⟩ => ⟨S24, .i32⟩
  | .hbm, ⟨39, _⟩ => ⟨S24, .i32⟩
  | .hbm, ⟨40, _⟩ => ⟨S24x1, .i32⟩
  | .hbm, ⟨41, _⟩ => ⟨S1, .i32⟩
  | .hbm, ⟨42, _⟩ => ⟨S_, .i32⟩
  | .hbm, ⟨43, _⟩ => ⟨S24x1, .i32⟩
  | .hbm, ⟨44, _⟩ => ⟨S24x1, .i1⟩
  | .hbm, ⟨45, _⟩ => ⟨S1x1, .i32⟩
  | .hbm, ⟨46, _⟩ => ⟨S24x1, .i32⟩
  | .hbm, ⟨47, _⟩ => ⟨S24x1, .i1⟩
  | .hbm, ⟨48, _⟩ => ⟨S24x1, .i1⟩
  | .hbm, ⟨49, _⟩ => ⟨S_, .i1⟩
  | .hbm, ⟨50, _⟩ => ⟨S24, .i1⟩
  | .hbm, ⟨51, _⟩ => ⟨S24x768, .f32⟩
  | .hbm, ⟨52, _⟩ => ⟨S24x768, .i1⟩
  | .hbm, ⟨53, _⟩ => ⟨S_, .f32⟩
  | .hbm, ⟨54, _⟩ => ⟨S24x768, .f32⟩
  | .hbm, ⟨55, _⟩ => ⟨S24x768, .f32⟩
  | .hbm, ⟨56, _⟩ => ⟨S1x768x1x24, .f32⟩
  | .hbm, ⟨57, _⟩ => ⟨S128x768x24x24, .f32⟩
  | .hbm, ⟨58, _⟩ => ⟨S128x768x24x24, .f32⟩
  | .hbm, ⟨59, _⟩ => ⟨S_, .f32⟩
  | .hbm, ⟨60, _⟩ => ⟨S768, .f32⟩
  | .hbm, ⟨61, _⟩ => ⟨S1x768x1x1, .f32⟩
  | .hbm, ⟨62, _⟩ => ⟨S_, .f32⟩
  | .hbm, ⟨63, _⟩ => ⟨S1x768x1x1, .f32⟩
  | .hbm, ⟨64, _⟩ => ⟨S1x768x1x1, .f32⟩
  | .hbm, ⟨65, _⟩ => ⟨S_, .i32⟩
  | .hbm, ⟨66, _⟩ => ⟨S_, .f32⟩
  | .hbm, ⟨67, _⟩ => ⟨S768, .f32⟩
  | .hbm, ⟨68, _⟩ => ⟨S1x768x1x1, .f32⟩
  | .hbm, ⟨69, _⟩ => ⟨S_, .f32⟩
  | .hbm, ⟨70, _⟩ => ⟨S1x768x1x1, .f32⟩
  | .hbm, ⟨71, _⟩ => ⟨S1x768x1x1, .f32⟩
  | .hbm, ⟨72, _⟩ => ⟨S128x768x24x24, .f32⟩
  | .hbm, ⟨73, _⟩ => ⟨S128x768x24x24, .f32⟩
  | .hbm, ⟨74, _⟩ => ⟨S128x768x24x24, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S768, .f32⟩
  | .hbm, ⟨80, _⟩ => ⟨S1x768x1x1, .f32⟩
  | .hbm, ⟨81, _⟩ => ⟨S1x768x1x1, .f32⟩
  | .hbm, ⟨82, _⟩ => ⟨S1x768x1x1, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S1x768x1x1, .f32⟩
  | .hbm, ⟨88, _⟩ => ⟨S1x768x1x1, .f32⟩
  | .hbm, ⟨89, _⟩ => ⟨S128x768x24x24, .f32⟩
  | .hbm, ⟨90, _⟩ => ⟨S128x768x24x24, .f32⟩
  | .hbm, ⟨91, _⟩ => ⟨S_, .f32⟩
  | .hbm, ⟨92, _⟩ => ⟨S1x768x1x1, .f32⟩
  | .hbm, ⟨93, _⟩ => ⟨S1x768x1x1, .f32⟩
  | .hbm, ⟨94, _⟩ => ⟨S1x768x1x1, .f32⟩
  | .hbm, ⟨95, _⟩ => ⟨S128x768x24x24, .f32⟩
  | .hbm, ⟨96, _⟩ => ⟨S128x768x24x24, .f32⟩
  | .hbm, ⟨97, _⟩ => ⟨S1x768x1x1, .f32⟩
  | .hbm, ⟨98, _⟩ => ⟨S128x768x24x24, .f32⟩
  | .hbm, ⟨99, _⟩ => ⟨S128x768x24x24, .f32⟩
  | .hbm, ⟨100, _⟩ => ⟨S1x768x1x1, .f32⟩
  | .hbm, ⟨101, _⟩ => ⟨S128x768x24x24, .f32⟩
  | .hbm, ⟨102, _⟩ => ⟨S128x768x24x24, .f32⟩
  | _, _ => ⟨S128x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_v11 : Ref sig .tc := ⟨.hbm, 61, rfl⟩
abbrev main_cst_0 : Ref sig .tc := ⟨.hbm, 62, rfl⟩
abbrev main_v12 : Ref sig .tc := ⟨.hbm, 63, rfl⟩
abbrev main_v13 : Ref sig .tc := ⟨.hbm, 64, rfl⟩
abbrev main_c : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_cst_1 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩

abbrev nD : Nat := 1
abbrev τ : Topo := Topo.v7x

variable {F : FTy → Type} [FloatOps F]

class Facts₀ : Prop where
  bcast_S_S24 : S_.BroadcastsInDim S24 (![] : Fin 0 → Fin S24.rank)
  bcast_S24_S24x1_0 : S24.BroadcastsInDim S24x1 (![0] : Fin 1 → Fin S24x1.rank)
  bcast_S_S24x1 : S_.BroadcastsInDim S24x1 (![] : Fin 0 → Fin S24x1.rank)
  bcast_S1_S1x1_1 : S1.BroadcastsInDim S1x1 (![1] : Fin 1 → Fin S1x1.rank)
  bcast_S1x1_S24x1_0_1 : S1x1.BroadcastsInDim S24x1 (![0, 1] : Fin 2 → Fin S24x1.rank)
  reducesTo_S24x1_S24_d1 : S24x1.ReducesTo [1] S24
  h_S_ : 0 < S_.numel
  bcast_S24_S24x768_0 : S24.BroadcastsInDim S24x768 (![0] : Fin 1 → Fin S24x768.rank)
  bcast_S_S24x768 : S_.BroadcastsInDim S24x768 (![] : Fin 0 → Fin S24x768.rank)
  shapeCasts_S24x768_S1x768x24x1 : S24x768.ShapeCasts S1x768x24x1
  bcast_S1x768x24x1_S128x768x24x24_0_1_2_3 : S1x768x24x1.BroadcastsInDim S128x768x24x24 (![0, 1, 2, 3] : Fin 4 → Fin S128x768x24x24.rank)
  shapeCasts_S24x768_S1x768x1x24 : S24x768.ShapeCasts S1x768x1x24
  bcast_S1x768x1x24_S128x768x24x24_0_1_2_3 : S1x768x1x24.BroadcastsInDim S128x768x24x24 (![0, 1, 2, 3] : Fin 4 → Fin S128x768x24x24.rank)
  reducesTo_S128x768x24x24_S768_d0_2_3 : S128x768x24x24.ReducesTo [0, 2, 3] S768
  bcast_S768_S1x768x1x1_1 : S768.BroadcastsInDim S1x768x1x1 (![1] : Fin 1 → Fin S1x768x1x1.rank)
  bcast_S_S1x768x1x1 : S_.BroadcastsInDim S1x768x1x1 (![] : Fin 0 → Fin S1x768x1x1.rank)
  bcast_S1x768x1x1_S128x768x24x24_0_1_2_3 : S1x768x1x1.BroadcastsInDim S128x768x24x24 (![0, 1, 2, 3] : Fin 4 → Fin S128x768x24x24.rank)
  shapeCasts_S768_S1x768x1x1 : S768.ShapeCasts S1x768x1x1
  gather_S100x768_S24x1_S24x768_1_0_n_n_0_1_1768_wf : GatherDims.WF S100x768 S24x1 S24x768 [1] [0] [] [0] [] 1 ![1, 768]

variable [Facts₀]

def gather_S100x768_S24x1_S24x768_1_0_n_n_0_1_1768 : GatherDims S100x768 S24x1 S24x768 where
  offsetDims := [1]
  collapsedSliceDims := [0]
  operandBatchingDims := []
  startIndicesBatchingDims := []
  startIndexMap := [0]
  indexVectorDim := 1
  sliceSizes := ![1, 768]
  wf := gather_S100x768_S24x1_S24x768_1_0_n_n_0_1_1768_wf

class Facts : Prop extends Facts₀ where

variable [Facts]
-- ==== Proof.Spec.lean ====
/-
  The mathematics both programs compute, stated with no program in sight.

  A SLAB is a family of extended reals xs i k over two finite index types (for this kernel: the batch
  index and the position inside one channel's image). Its total is the double sum, its mean the total
  divided by the count word 73728 = 128 * 576, its centred entries xs i k - mean, its (biased) variance
  the mean of the squared centred entries. Batch normalisation of the slab by a scale g and a shift
  be is written two ways:

    bnK:  centred * (g * rsqrt (var + eps)) + be          (one reciprocal square root, then products)
    bnR:  (centred / sqrt (var + eps)) * g + be           (a quotient by the square root)

  They agree on ALL extended reals (bnK_eq_bnR): a square is never negative, so neither is a sum of
  squares nor its quotient by a positive count, hence var + eps is positive (possibly +infinity); on a
  positive argument rsqrt is the inverse of sqrt, the quotient by a nonzero sqrt is the product with that
  inverse, and the rest is commutativity and associativity of the product. No finiteness is used.

  The slab of channel c is the video entry plus a row term and a column term read from two tables
  through a row-major re-reading of their first 24 rows (tab), and G is the whole result array.
-/
import Idealize.ShloMosaic.PureOps.Ideal
import Idealize.ShloMosaic.PureOps.Ideal.Laws
import Idealize.ShloMosaic.Lib.ValueIdx
import Mathlib.Data.EReal.Inv
import Mathlib.Algebra.BigOperators.Fin

open scoped BigOperators

noncomputable section

namespace Cert.Norm

open Idealize.ShloMosaic Idealize.ShloMosaic.ValueIdx

/-! ## The two literals -/

/-- The count word: the f32 pattern of 73728 = 128 * 24 * 24. -/
abbrev cnt : EReal := Ideal.ofBits .f32 0x47900000#32
/-- The stabiliser word: the f32 nearest 1e-12. -/
abbrev eps : EReal := Ideal.ofBits .f32 0x2B8CBCCC#32

theorem cnt_eq : cnt = ((73728 : ℝ) : EReal) := by
  simp [cnt, Ideal.ofBits, Ideal.ieee]
  exact_mod_cast (by norm_num : (9437184 : ℝ) * (2 ^ 7)⁻¹ = 73728)

theorem eps_pos : 0 < eps := by
  simp [eps, Ideal.ofBits, Ideal.ieee]
  exact_mod_cast (by positivity : (0 : ℝ) < 9223372 * (2 ^ 63)⁻¹)

/-- Dividing by the count is multiplying by the real 1/73728, on every extended real. -/
theorem div_cnt (x : EReal) : Ideal.div x cnt = x * (((1 / 73728 : ℝ)) : EReal) := by
  rw [cnt_eq]; exact Ideal.div_coe (by norm_num) x

/-! ## Squares and sums of squares are not negative -/

theorem mul_self_nonneg' (a : EReal) : 0 ≤ a * a := by
  rcases le_total 0 a with h | h
  · exact mul_nonneg h h
  · have h' : 0 ≤ -a := EReal.neg_nonneg.mpr h
    have := mul_nonneg h' h'
    rwa [neg_mul_neg] at this

/-! ## A slab, its moments, and the two spellings of its normalisation -/

section Slab
variable {ι κ : Type} [Fintype ι] [Fintype κ]

/-- The double sum of a slab. -/
def total (f : ι → κ → EReal) : EReal := ∑ i, ∑ k, f i k
/-- The mean: the total over the count word. -/
def mean (xs : ι → κ → EReal) : EReal := Ideal.div (total xs) cnt
/-- A centred entry. -/
def cen (xs : ι → κ → EReal) (i : ι) (k : κ) : EReal := xs i k - mean xs
/-- The biased variance: the mean of the squared centred entries. -/
def var (xs : ι → κ → EReal) : EReal := Ideal.div (total fun i k => cen xs i k * cen xs i k) cnt
/-- Normalisation with one reciprocal square root. -/
def bnK (xs : ι → κ → EReal) (g be : EReal) (i : ι) (k : κ) : EReal :=
  cen xs i k * (g * Ideal.rsqrt (var xs + eps)) + be
/-- Normalisation with a quotient by the square root. -/
def bnR (xs : ι → κ → EReal) (g be : EReal) (i : ι) (k : κ) : EReal :=
  Ideal.div (cen xs i k) (Ideal.sqrt (var xs + eps)) * g + be

theorem total_nonneg (f : ι → κ → EReal) (hf : ∀ i k, 0 ≤ f i k) : 0 ≤ total f :=
  Finset.sum_nonneg fun i _ => Finset.sum_nonneg fun k _ => hf i k

theorem var_nonneg (xs : ι → κ → EReal) : 0 ≤ var xs := by
  unfold var
  rw [div_cnt]
  exact mul_nonneg (total_nonneg _ fun i k => mul_self_nonneg' _) (by exact_mod_cast (by positivity : (0 : ℝ) ≤ 1 / 73728))

theorem var_eps_pos (xs : ι → κ → EReal) : 0 < var xs + eps :=
  lt_of_lt_of_le eps_pos (le_add_of_nonneg_left (var_nonneg xs))

/-- On a positive extended real, the quotient by the square root is the product with the reciprocal square root. -/
theorem div_sqrt_eq_mul_rsqrt (a y : EReal) (hy : 0 < y) : Ideal.div a (Ideal.sqrt y) = a * Ideal.rsqrt y := by
  induction y using EReal.rec with
  | bot => exact absurd hy (by simp)
  | top =>
    rw [Ideal.sqrt_top, Ideal.rsqrt_top, Ideal.div, if_neg (by simp), EReal.inv_top]
  | coe r =>
    have hr : 0 < r := by exact_mod_cast hy
    have hs : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hs.ne'), EReal.coe_inv]

/-- The two spellings agree, on all extended reals. -/
theorem bnK_eq_bnR (xs : ι → κ → EReal) (g be : EReal) (i : ι) (k : κ) : bnK xs g be i k = bnR xs g be i k := by
  unfold bnK bnR
  rw [div_sqrt_eq_mul_rsqrt _ _ (var_eps_pos xs), mul_assoc, mul_comm g]

/-- A slab re-indexed along a bijection of its second index type has the same total, -/
theorem total_equiv {κ' : Type} [Fintype κ'] (e : κ' ≃ κ) (f : ι → κ → EReal) :
    total (fun i k' => f i (e k')) = total f := by
  unfold total
  exact Finset.sum_congr rfl fun i _ => Equiv.sum_comp e (f i)

/-- hence the same mean, -/
theorem mean_equiv {κ' : Type} [Fintype κ'] (e : κ' ≃ κ) (xs : ι → κ → EReal) :
    mean (fun i k' => xs i (e k')) = mean xs := by
  unfold mean; rw [total_equiv e xs]

/-- the same variance, -/
theorem var_equiv {κ' : Type} [Fintype κ'] (e : κ' ≃ κ) (xs : ι → κ → EReal) :
    var (fun i k' => xs i (e k')) = var xs := by
  unfold var cen; rw [mean_equiv e xs]
  exact congrArg (Ideal.div · cnt) (total_equiv e fun i k => (xs i k - mean xs) * (xs i k - mean xs))

/-- and the same normalised entries, read through the bijection. -/
theorem bnK_equiv {κ' : Type} [Fintype κ'] (e : κ' ≃ κ) (xs : ι → κ → EReal) (g be : EReal) (i : ι) (k' : κ') :
    bnK (fun i k' => xs i (e k')) g be i k' = bnK xs g be i (e k') := by
  unfold bnK cen; rw [mean_equiv e xs, var_equiv e xs]

end Slab

/-! ## The positional tables, one channel's slab, and the result array -/

/-- Entry (c, h) of the [768, 24] array whose row-major flattening is that of the first 24 rows of a
    [100, 768] table: flat position 24 c + h, which is the table's entry (row (24 c + h) / 768, column (24 c + h) % 768). -/
def tab (t : (⟨2, ![100, 768]⟩ : Shape).Idx → EReal) (c : Fin 768) (h : Fin 24) : EReal :=
  t (ix2 ⟨(24 * c.val + h.val) / 768, by omega⟩ ⟨(24 * c.val + h.val) % 768, Nat.mod_lt _ (by norm_num)⟩)

/-- Channel c's slab: over the batch index and the image position (h, w), the video entry plus the row
    table's term at (c, h) plus the column table's term at (c, w). -/
def slab (v : (⟨4, ![128, 768, 24, 24]⟩ : Shape).Idx → EReal) (rt ct : (⟨2, ![100, 768]⟩ : Shape).Idx → EReal)
    (c : Fin 768) (b : Fin 128) (hw : Fin 24 × Fin 24) : EReal :=
  v (ix4 b c hw.1 hw.2) + tab rt c hw.1 + tab ct c hw.2

/-- The result at (b, c, h, w): channel c's slab normalised by gamma c and beta c, read at (b, (h, w)). -/
def Gat (v : (⟨4, ![128, 768, 24, 24]⟩ : Shape).Idx → EReal) (rt ct : (⟨2, ![100, 768]⟩ : Shape).Idx → EReal)
    (g be : (⟨1, ![768]⟩ : Shape).Idx → EReal) (b : Fin 128) (c : Fin 768) (h w : Fin 24) : EReal :=
  bnR (slab v rt ct c) (g (ix1 c)) (be (ix1 c)) b (h, w)

/-- The whole result array. -/
def G (v : (⟨4, ![128, 768, 24, 24]⟩ : Shape).Idx → EReal) (rt ct : (⟨2, ![100, 768]⟩ : Shape).Idx → EReal)
    (g be : (⟨1, ![768]⟩ : Shape).Idx → EReal) : (⟨4, ![128, 768, 24, 24]⟩ : Shape).Idx → EReal :=
  fun i => Gat v rt ct g be (i 0) (i 1) (i 2) (i 3)

theorem G_apply (v : (⟨4, ![128, 768, 24, 24]⟩ : Shape).Idx → EReal) (rt ct : (⟨2, ![100, 768]⟩ : Shape).Idx → EReal)
    (g be : (⟨1, ![768]⟩ : Shape).Idx → EReal) (b : Fin 128) (c : Fin 768) (h w : Fin 24) :
    G v rt ct g be (ix4 b c h w) = bnR (slab v rt ct c) (g (ix1 c)) (be (ix1 c)) b (h, w) := rfl

/-! ## The image position as one number -/

/-- Position (h, w) of a 24 x 24 image is number 24 h + w of its 576 entries. -/
def pos : Fin 24 × Fin 24 ≃ Fin 576 where
  toFun p := ⟨24 * p.1.val + p.2.val, by have := p.1.isLt; have := p.2.isLt; omega⟩
  invFun q := (⟨q.val / 24, by have := q.isLt; omega⟩, ⟨q.val % 24, Nat.mod_lt _ (by norm_num)⟩)
  left_inv p := by
    have h1 := p.1.isLt; have h2 := p.2.isLt
    refine Prod.ext (Fin.ext ?_) (Fin.ext ?_)
    · show (24 * p.1.val + p.2.val) / 24 = p.1.val; omega
    · show (24 * p.1.val + p.2.val) % 24 = p.2.val; omega
  right_inv q := by
    refine Fin.ext ?_
    show 24 * (q.val / 24) + q.val % 24 = q.val; omega

theorem pos_val (h w : Fin 24) : (pos (h, w)).val = 24 * h.val + w.val := rfl
theorem pos_symm_fst (q : Fin 576) : (pos.symm q).1.val = q.val / 24 := rfl
theorem pos_symm_snd (q : Fin 576) : (pos.symm q).2.val = q.val % 24 := rfl

/-! ## The same result in the flat layout [128, 768, 576] -/

/-- Channel c's slab in the flat layout: the flat video entry plus the flat positional table's entry. -/
def slabK (v3 : (⟨3, ![128, 768, 576]⟩ : Shape).Idx → EReal) (p : (⟨2, ![768, 576]⟩ : Shape).Idx → EReal)
    (c : Fin 768) (b : Fin 128) (q : Fin 576) : EReal :=
  v3 (ix3 b c q) + p (ix2 c q)

/-- The flat result at (b, c, q): channel c's flat slab normalised, with one reciprocal square root. -/
def Gk (v3 : (⟨3, ![128, 768, 576]⟩ : Shape).Idx → EReal) (p : (⟨2, ![768, 576]⟩ : Shape).Idx → EReal)
    (g2 be2 : (⟨2, ![768, 1]⟩ : Shape).Idx → EReal) : (⟨3, ![128, 768, 576]⟩ : Shape).Idx → EReal :=
  fun i => bnK (slabK v3 p (i 1)) (g2 (ix2 (i 1) 0)) (be2 (ix2 (i 1) 0)) (i 0) (i 2)

theorem Gk_apply (v3 : (⟨3, ![128, 768, 576]⟩ : Shape).Idx → EReal) (p : (⟨2, ![768, 576]⟩ : Shape).Idx → EReal)
    (g2 be2 : (⟨2, ![768, 1]⟩ : Shape).Idx → EReal) (b : Fin 128) (c : Fin 768) (q : Fin 576) :
    Gk v3 p g2 be2 (ix3 b c q) = bnK (slabK v3 p c) (g2 (ix2 c 0)) (be2 (ix2 c 0)) b q := rfl

/-- THE BRIDGE between the layouts. If the flat video is the video re-read ((h, w) at 24 h + w), the flat table the
    sum of the two tables' terms, and the column forms of gamma and beta the vectors, then the flat result at
    (b, c, 24 h + w) is the result at (b, c, h, w): the flat slab read through the position bijection is the slab up
    to the association of its three summands, and the two spellings of the normalisation agree. -/
theorem Gk_eq_G (v3 : (⟨3, ![128, 768, 576]⟩ : Shape).Idx → EReal) (p : (⟨2, ![768, 576]⟩ : Shape).Idx → EReal)
    (g2 be2 : (⟨2, ![768, 1]⟩ : Shape).Idx → EReal)
    (v : (⟨4, ![128, 768, 24, 24]⟩ : Shape).Idx → EReal) (rt ct : (⟨2, ![100, 768]⟩ : Shape).Idx → EReal)
    (g be : (⟨1, ![768]⟩ : Shape).Idx → EReal)
    (hv : ∀ (b : Fin 128) (c : Fin 768) (h w : Fin 24), v3 (ix3 b c (pos (h, w))) = v (ix4 b c h w))
    (hp : ∀ (c : Fin 768) (h w : Fin 24), p (ix2 c (pos (h, w))) = tab rt c h + tab ct c w)
    (hg : ∀ c : Fin 768, g2 (ix2 c 0) = g (ix1 c)) (hbe : ∀ c : Fin 768, be2 (ix2 c 0) = be (ix1 c))
    (b : Fin 128) (c : Fin 768) (h w : Fin 24) :
    Gk v3 p g2 be2 (ix3 b c (pos (h, w))) = G v rt ct g be (ix4 b c h w) := by
  rw [Gk_apply, G_apply, ← bnK_eq_bnR, hg, hbe, ← bnK_equiv pos (slabK v3 p c)]
  have hs : (fun (i : Fin 128) (k' : Fin 24 × Fin 24) => slabK v3 p c i (pos k')) = slab v rt ct c := by
    funext i k'
    obtain ⟨h', w'⟩ := k'
    unfold slabK slab
    rw [hv, hp, add_assoc]
  rw [hs]

end Cert.Norm

end
-- ==== Proof.LibSums.lean ====
/-
  Sums over the indices of a rank-3 or rank-4 array whose coordinate on axis 1 is fixed.

  A reduction of an array over every axis but axis 1 sums, at the kept coordinate c, the entries whose
  axis-1 coordinate is c. Those indices are exactly (a, c, q) for a rank-3 array [A, B, C] and (a, c, h, w)
  for a rank-4 array [A, B, C, D], so the sum is the double sum over the free coordinates. Stated for any
  predicate that holds exactly when the axis-1 coordinate is c, in any commutative additive monoid.
-/
import Idealize.ShloMosaic.Lib.ValueIdx
import Mathlib.Algebra.BigOperators.Fin
import Mathlib.Algebra.BigOperators.Group.Finset.Sigma

open scoped BigOperators

namespace Cert.Sums

open Idealize.ShloMosaic Idealize.ShloMosaic.ValueIdx

/-- Rank 3: the entries (a, c, q) of an [A, B, C] array with c fixed, summed over a and q. -/
theorem sum_filter_axis1_of3 {M : Type} [AddCommMonoid M] {A B C : Nat}
    (f : (⟨3, ![A, B, C]⟩ : Shape).Idx → M) (p : (⟨3, ![A, B, C]⟩ : Shape).Idx → Prop) [DecidablePred p] (c : Fin B)
    (hp : ∀ i, p i ↔ (i 1).val = c.val) :
    ∑ i ∈ Finset.univ.filter p, f i = ∑ a : Fin A, ∑ q : Fin C, f (ix3 a c q) := by
  rw [← Fintype.sum_prod_type' (f := fun (a : Fin A) (q : Fin C) => f (ix3 a c q))]
  symm
  refine Finset.sum_nbij' (fun x : Fin A × Fin C => ix3 x.1 c x.2) (fun i => (i 0, i 2)) ?_ ?_ ?_ ?_ ?_
  · intro x _
    exact Finset.mem_filter.mpr ⟨Finset.mem_univ _, (hp _).mpr rfl⟩
  · intro i _; exact Finset.mem_univ _
  · intro x _; rfl
  · intro i hi
    have h1 : (i 1).val = c.val := (hp i).mp (Finset.mem_filter.mp hi).2
    show ix3 (i 0) c (i 2) = i
    conv_rhs => rw [eq_ix3 i]
    congr 1
    exact Fin.ext h1.symm
  · intro x _; rfl

/-- Rank 4: the entries (a, c, h, w) of an [A, B, C, D] array with c fixed, summed over a and the pair (h, w). -/
theorem sum_filter_axis1_of4 {M : Type} [AddCommMonoid M] {A B C D : Nat}
    (f : (⟨4, ![A, B, C, D]⟩ : Shape).Idx → M) (p : (⟨4, ![A, B, C, D]⟩ : Shape).Idx → Prop) [DecidablePred p] (c : Fin B)
    (hp : ∀ i, p i ↔ (i 1).val = c.val) :
    ∑ i ∈ Finset.univ.filter p, f i = ∑ a : Fin A, ∑ k : Fin C × Fin D, f (ix4 a c k.1 k.2) := by
  rw [← Fintype.sum_prod_type' (f := fun (a : Fin A) (k : Fin C × Fin D) => f (ix4 a c k.1 k.2))]
  symm
  refine Finset.sum_nbij' (fun x : Fin A × (Fin C × Fin D) => ix4 x.1 c x.2.1 x.2.2) (fun i => (i 0, (i 2, i 3))) ?_ ?_ ?_ ?_ ?_
  · intro x _
    exact Finset.mem_filter.mpr ⟨Finset.mem_univ _, (hp _).mpr rfl⟩
  · intro i _; exact Finset.mem_univ _
  · intro x _; rfl
  · intro i hi
    have h1 : (i 1).val = c.val := (hp i).mp (Finset.mem_filter.mp hi).2
    show ix4 (i 0) c (i 2) (i 3) = i
    conv_rhs => rw [eq_ix4 i]
    congr 1
    exact Fin.ext h1.symm
  · intro x _; rfl

end Cert.Sums
-- ==== Proof.KernBody.lean ====
/-
  The kernel body's one stored value, read at an entry of the block.
  The body adds the positional block to the video block, takes per channel of the block the sum over
  batch and position, divides by the count, centres, squares, sums and divides again, adds the
  stabiliser, takes the reciprocal square root, scales by gamma, multiplies the centred entries and adds
  beta. Entry (b, cc, q) of the stored value is therefore the normalisation bnK of channel cc's slab of
  the block, the slab being the video block plus the positional block.
-/
import proofs.«137005_g2362232013395_cont_8to1_2029_2_alg».proof.Proof.Gen.KernelIdeal.Skeleton
import proofs.«137005_g2362232013395_cont_8to1_2029_2_alg».proof.Proof.Spec
import proofs.«137005_g2362232013395_cont_8to1_2029_2_alg».proof.Proof.LibSums
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

open scoped BigOperators

/-! ## The layout operations of the body, read at coordinates -/

section Layout
variable {α : Type}

/-- A vector [a] cast to a column [1, a, 1] reads, at (u, i, w), the vector at i: both have row-major position i. -/
private theorem shapeCast_a_1a1_apply {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw, Nat.zero_mul, Nat.zero_add, Nat.mul_one, Nat.add_zero])

/-- A column [1, b, 1] broadcast to [a, b, c] reads, at (p, i, r), the column at (0, i, 0). -/
private theorem broadcastTo_1b1_abc_apply {a b c : ℕ} (v : (⟨3, ![1, b, 1]⟩ : Shape).Idx → α)
    (h : (⟨3, ![1, b, 1]⟩ : Shape).Broadcasts ⟨3, ![a, b, c]⟩) (p : Fin a) (i : Fin b) (r : Fin c) :
    broadcastTo ⟨3, ![a, b, c]⟩ v h (ix3 p i r) = v (ix3 (0 : Fin 1) i (0 : Fin 1)) := by
  refine broadcastTo_apply v h (ix3 p i r) (ix3 (0 : Fin 1) i (0 : Fin 1)) fun ax => ?_
  match ax with
  | ⟨0, _⟩ => rfl
  | ⟨1, _⟩ =>
    show i.val = if b = 1 then 0 else i.val
    split
    · have := i.isLt; omega
    · rfl
  | ⟨2, _⟩ => rfl

/-- One slice [1, b, c] broadcast to [a, b, c] reads, at (p, i, r), the slice at (0, i, r). -/
private theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (r : Fin c) :
    broadcastTo ⟨3, ![a, b, c]⟩ v h (ix3 p i r) = v (ix3 (0 : Fin 1) i r) := by
  refine broadcastTo_apply v h (ix3 p i r) (ix3 (0 : Fin 1) i r) fun ax => ?_
  match ax with
  | ⟨0, _⟩ => rfl
  | ⟨1, _⟩ =>
    show i.val = if b = 1 then 0 else i.val
    split
    · have := i.isLt; omega
    · rfl
  | ⟨2, _⟩ =>
    show r.val = if c = 1 then 0 else r.val
    split
    · have := r.isLt; omega
    · rfl

end Layout

/-- The reciprocal square root of a vector reads, at an index, the reciprocal square root of the entry. -/
private theorem rsqrt_apply {s : Shape} {φ : FTy} (a : FVec Ideal s φ) (i : s.Idx) :
    rsqrt a i = Ideal.rsqrt (a i) := rfl

/-! ## The sum over batch and position of one channel -/

/-- The sum of a [128, 16, 576] block over axes 0 and 2, read at channel cc, is the double sum of the block's
    entries (a, cc, q) over a and q: the indices that drop to cc are exactly those whose middle coordinate is cc. -/
private theorem sumBlock (src : (⟨3, ![128, 16, 576]⟩ : Shape).Idx → EReal) (h : S128x16x576.Reduces [0, 2] S16)
    (cc : Fin 16) :
    Ideal.reduceAdd h src (ix1 cc) = ∑ a : Fin 128, ∑ q : Fin 576, src (ix3 a cc q) := by
  unfold Ideal.reduceAdd
  refine Cert.Sums.sum_filter_axis1_of3 src _ cc fun i => ?_
  -- the one coordinate of the dropped index is the source's middle coordinate
  have hd : (h.drop i 0 : Nat) = i 1 := h.drop_apply_val_of_eq i 0 1
  constructor
  · intro hi
    rw [hi] at hd
    exact hd.symm
  · intro hi
    rw [eq_ix1 (h.drop i)]
    exact congrArg ix1 (Fin.ext (hd.trans hi))

/-! ## The stored value at an entry -/

/-- Entry (b, cc, q) of the body's stored value is channel cc's slab of the block, normalised by the gamma and
    beta blocks' entries at cc, read at (b, q). -/
theorem pay_apply (x0 : Vec Ideal S128x16x576 .f32) (x1 : Vec Ideal S16x576 .f32) (x2 x3 : Vec Ideal S16x1 .f32)
    (b : Fin 128) (cc : Fin 16) (q : Fin 576) :
    k0_pay1 (F := Ideal) x0 x1 x2 x3 (ix3 b cc q)
      = Cert.Norm.bnK (fun (b' : Fin 128) (q' : Fin 576) => x0 (ix3 b' cc q') + x1 (ix2 cc q'))
          (x2 (ix2 cc 0)) (x3 (ix2 cc 0)) b q := by
  -- The stored value is a fixed composition of the body's operations; at the extended reals each of its two
  -- lane sums is, by definition, the sum of the entries that drop to a channel.
  unfold k0_pay1
  delta multiReduction
  -- Read entry by entry. The pointwise operations act on entries; a cast to the same shape is the identity; the
  -- positional block cast to [1, 16, 576] and broadcast over the batch reads its entry (cc, q); a column
  -- [1, 16, 1] broadcast over the block reads its entry at cc, which for a cast lane sum is the double sum over
  -- batch and position of the entries (a, cc, q), and for the gamma and beta blocks their entry (cc, 0).
  simp only [Ideal.reduceAdd_def, addf_apply, mulf_apply, subf_apply, divf_apply, rsqrt_apply, broadcast_apply,
    shapeCast_self, broadcastTo_1b1_abc_apply, broadcastTo_1bc_abc_apply, shapeCast_ab_1ab_apply,
    shapeCast_a_1a1_apply, sumBlock]
  -- What is left is the normalisation of the slab with its total, mean, centred entries and variance written
  -- out, the count and the stabiliser being the same two words.
  rfl

end Cert.KernelIdeal.Body

end
-- ==== Proof.KernHost.lean ====
/-
  The four arrays the kernel region finds, as functions of the program's arguments.
  Before the region the program re-reads the video [128, 768, 24, 24] as [128, 768, 576] (position (h, w) at
  24 h + w), builds the positional table [768, 576] whose entry (c, 24 h + w) is the row table's term at (c, h)
  plus the column table's term at (c, w) -- each term read from the first 24 rows of its table re-read
  row-major as [768, 24] --, and re-reads gamma and beta as columns [768, 1].
-/
import proofs.«137005_g2362232013395_cont_8to1_2029_2_alg».proof.Proof.Gen.KernelIdeal.Frame
import proofs.«137005_g2362232013395_cont_8to1_2029_2_alg».proof.Proof.Spec
import Idealize.ShloMosaic.Lib.Pipeline.Value
import Idealize.ShloMosaic.Lib.ValueLayout
import Idealize.ShloMosaic.Lib.StableHlo.Run

noncomputable section

namespace Cert.KernelIdeal.HostVals

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## Reading the layout operations at coordinates -/

section Reads
variable {α : Type}

/-- A [128, 768, 24, 24] array re-read as [128, 768, 576]: position (b, c, 24 h + w) holds the entry (b, c, h, w). -/
theorem cast_video_apply (x : (⟨4, ![128, 768, 24, 24]⟩ : Shape).Idx → α)
    (hc : (⟨4, ![128, 768, 24, 24]⟩ : Shape).ShapeCasts ⟨3, ![128, 768, 576]⟩)
    (b : Fin 128) (ch : Fin 768) (h w : Fin 24) :
    shapeCast ⟨3, ![128, 768, 576]⟩ x hc (ix3 b ch (Cert.Norm.pos (h, w))) = x (ix4 b ch h w) :=
  shapeCast_apply x hc _ _ (by
    rw [Shape.rowMajor_val_four, Shape.rowMajor_val_three]
    show ((b.val * 768 + ch.val) * 24 + h.val) * 24 + w.val = (b.val * 768 + ch.val) * 576 + (24 * h.val + w.val)
    omega)

/-- A [768] vector re-read as a column [768, 1]: position (c, 0) holds the entry c. -/
theorem cast_column_apply (x : (⟨1, ![768]⟩ : Shape).Idx → α)
    (hc : (⟨1, ![768]⟩ : Shape).ShapeCasts ⟨2, ![768, 1]⟩) (ch : Fin 768) :
    shapeCast ⟨2, ![768, 1]⟩ x hc (ix2 ch (0 : Fin 1)) = x (ix1 ch) :=
  shapeCast_apply x hc _ _ (by
    rw [Shape.rowMajor_val_one, Shape.rowMajor_val_two]
    show ch.val = ch.val * 1 + 0
    omega)

/-- A [768, 24, 24] array re-read as [768, 576]: position (c, 24 h + w) holds the entry (c, h, w). -/
theorem cast_table_apply (x : (⟨3, ![768, 24, 24]⟩ : Shape).Idx → α)
    (hc : (⟨3, ![768, 24, 24]⟩ : Shape).ShapeCasts ⟨2, ![768, 576]⟩) (ch : Fin 768) (h w : Fin 24) :
    shapeCast ⟨2, ![768, 576]⟩ x hc (ix2 ch (Cert.Norm.pos (h, w))) = x (ix3 ch h w) :=
  shapeCast_apply x hc _ _ (by
    rw [Shape.rowMajor_val_three, Shape.rowMajor_val_two]
    show (ch.val * 24 + h.val) * 24 + w.val = ch.val * 576 + (24 * h.val + w.val)
    omega)

/-- A [768, 24, 1] array repeated along its last axis to [768, 24, 24]: position (c, h, w) holds the entry (c, h, 0). -/
theorem bcast_last_apply (x : (⟨3, ![768, 24, 1]⟩ : Shape).Idx → α)
    (hb : (⟨3, ![768, 24, 1]⟩ : Shape).BroadcastsInDim ⟨3, ![768, 24, 24]⟩ (![0, 1, 2] : Fin 3 → Fin 3))
    (ch : Fin 768) (h w : Fin 24) :
    broadcastInDim ⟨3, ![768, 24, 24]⟩ (![0, 1, 2] : Fin 3 → Fin 3) hb x (ix3 ch h w) = x (ix3 ch h (0 : Fin 1)) :=
  broadcastInDim_apply _ hb x _ _ fun a => match a with | ⟨0, _⟩ => rfl | ⟨1, _⟩ => rfl | ⟨2, _⟩ => rfl

/-- A [768, 1, 24] array repeated along its middle axis to [768, 24, 24]: position (c, h, w) holds the entry (c, 0, w). -/
theorem bcast_mid_apply (x : (⟨3, ![768, 1, 24]⟩ : Shape).Idx → α)
    (hb : (⟨3, ![768, 1, 24]⟩ : Shape).BroadcastsInDim ⟨3, ![768, 24, 24]⟩ (![0, 1, 2] : Fin 3 → Fin 3))
    (ch : Fin 768) (h w : Fin 24) :
    broadcastInDim ⟨3, ![768, 24, 24]⟩ (![0, 1, 2] : Fin 3 → Fin 3) hb x (ix3 ch h w) = x (ix3 ch (0 : Fin 1) w) :=
  broadcastInDim_apply _ hb x _ _ fun a => match a with | ⟨0, _⟩ => rfl | ⟨1, _⟩ => rfl | ⟨2, _⟩ => rfl

/-- A [768, 24] array given a trailing unit axis: position (c, h, 0) holds the entry (c, h). -/
theorem unit_last_apply (x : (⟨2, ![768, 24]⟩ : Shape).Idx → α)
    (hb : (⟨2, ![768, 24]⟩ : Shape).BroadcastsInDim ⟨3, ![768, 24, 1]⟩ (![0, 1] : Fin 2 → Fin 3))
    (ch : Fin 768) (h : Fin 24) (u : Fin 1) :
    broadcastInDim ⟨3, ![768, 24, 1]⟩ (![0, 1] : Fin 2 → Fin 3) hb x (ix3 ch h u) = x (ix2 ch h) :=
  broadcastInDim_apply _ hb x _ _ fun a => match a with | ⟨0, _⟩ => rfl | ⟨1, _⟩ => rfl

/-- A [768, 24] array given a middle unit axis: position (c, 0, w) holds the entry (c, w). -/
theorem unit_mid_apply (x : (⟨2, ![768, 24]⟩ : Shape).Idx → α)
    (hb : (⟨2, ![768, 24]⟩ : Shape).BroadcastsInDim ⟨3, ![768, 1, 24]⟩ (![0, 2] : Fin 2 → Fin 3))
    (ch : Fin 768) (u : Fin 1) (w : Fin 24) :
    broadcastInDim ⟨3, ![768, 1, 24]⟩ (![0, 2] : Fin 2 → Fin 3) hb x (ix3 ch u w) = x (ix2 ch w) :=
  broadcastInDim_apply _ hb x _ _ fun a => match a with | ⟨0, _⟩ => rfl | ⟨1, _⟩ => rfl

/-- The first 24 rows of a [100, 768] table, re-read row-major as [768, 24]: position (c, h) is flat position
    24 c + h, the table's entry at row (24 c + h) / 768 and column (24 c + h) % 768. -/
theorem rows_recast_apply (t : (⟨2, ![100, 768]⟩ : Shape).Idx → EReal)
    (hs : (⟨2, ![100, 768]⟩ : Shape).Slices ![0, 0] ⟨2, ![24, 768]⟩)
    (hc : (⟨2, ![24, 768]⟩ : Shape).ShapeCasts ⟨2, ![768, 24]⟩) (ch : Fin 768) (h : Fin 24) :
    shapeCast ⟨2, ![768, 24]⟩ (extractStridedSlice ⟨2, ![24, 768]⟩ ![0, 0] t hs) hc (ix2 ch h) = Cert.Norm.tab t ch h := by
  have hr : (24 * ch.val + h.val) / 768 < 24 := by have := ch.isLt; have := h.isLt; omega
  have hq : (24 * ch.val + h.val) % 768 < 768 := Nat.mod_lt _ (by norm_num)
  refine (shapeCast_apply _ hc (ix2 ch h)
    (ix2 (⟨(24 * ch.val + h.val) / 768, hr⟩ : Fin 24) (⟨(24 * ch.val + h.val) % 768, hq⟩ : Fin 768)) (by
      rw [Shape.rowMajor_val_two, Shape.rowMajor_val_two]
      show (24 * ch.val + h.val) / 768 * 768 + (24 * ch.val + h.val) % 768 = ch.val * 24 + h.val
      omega)).trans ?_
  exact extractStridedSlice_apply _ t hs _ _ fun a => match a with
    | ⟨0, _⟩ => by show (24 * ch.val + h.val) / 768 = 0 + (24 * ch.val + h.val) / 768; omega
    | ⟨1, _⟩ => by show (24 * ch.val + h.val) % 768 = 0 + (24 * ch.val + h.val) % 768; omega

end Reads

/-! ## The four arrays as terms of the arguments -/

theorem e_video (c : Dev nD) :
    (V m c main_call0_v0 : S128x768x576.Idx → EReal)
      = shapeCast S128x768x576 (m ((c : Thread nD τ).loc main_arg0) : S128x768x24x24.Idx → EReal)
          shapeCasts_S128x768x24x24_S128x768x576 := by
  dsimp only [Gen.V, Gen.V0]
  simp only [Gen.hostOps0, List.flatten_cons, List.flatten_nil, List.append_nil, List.cons_append, List.nil_append]
  after_results
  rfl

theorem e_table (c : Dev nD) :
    (V m c main_call0_v10 : S768x576.Idx → EReal)
      = shapeCast S768x576
          (addf (F := Ideal) (φ := .f32)
            (broadcastInDim S768x24x24 ![0, 1, 2] bcast_S768x24x1_S768x24x24_0_1_2
              (broadcastInDim S768x24x1 ![0, 1] bcast_S768x24_S768x24x1_0_1
                (shapeCast S768x24
                  (extractStridedSlice S24x768 ![0, 0] (m ((c : Thread nD τ).loc main_arg1) : S100x768.Idx → EReal)
                    slices_S100x768_S24x768_0_0) shapeCasts_S24x768_S768x24)))
            (broadcastInDim S768x24x24 ![0, 1, 2] bcast_S768x1x24_S768x24x24_0_1_2
              (broadcastInDim S768x1x24 ![0, 2] bcast_S768x24_S768x1x24_0_2
                (shapeCast S768x24
                  (extractStridedSlice S24x768 ![0, 0] (m ((c : Thread nD τ).loc main_arg2) : S100x768.Idx → EReal)
                    slices_S100x768_S24x768_0_0) shapeCasts_S24x768_S768x24))))
          shapeCasts_S768x24x24_S768x576 := by
  dsimp only [Gen.V, Gen.V0]
  simp only [Gen.hostOps0, List.flatten_cons, List.flatten_nil, List.append_nil, List.cons_append, List.nil_append]
  after_results
  rfl

theorem e_gamma (c : Dev nD) :
    (V m c main_call0_v11 : S768x1.Idx → EReal)
      = shapeCast S768x1 (m ((c : Thread nD τ).loc main_arg3) : S768.Idx → EReal) shapeCasts_S768_S768x1 := by
  dsimp only [Gen.V, Gen.V0]
  simp only [Gen.hostOps0, List.flatten_cons, List.flatten_nil, List.append_nil, List.cons_append, List.nil_append]
  after_results
  rfl

theorem e_beta (c : Dev nD) :
    (V m c main_call0_v12 : S768x1.Idx → EReal)
      = shapeCast S768x1 (m ((c : Thread nD τ).loc main_arg4) : S768.Idx → EReal) shapeCasts_S768_S768x1 := by
  dsimp only [Gen.V, Gen.V0]
  simp only [Gen.hostOps0, List.flatten_cons, List.flatten_nil, List.append_nil, List.cons_append, List.nil_append]
  after_results
  rfl

/-! ## The four facts -/

/-- The flat video at (b, c, 24 h + w) is the video at (b, c, h, w). -/
theorem V_video (c : Dev nD) (b : Fin 128) (ch : Fin 768) (h w : Fin 24) :
    (V m c main_call0_v0 : S128x768x576.Idx → EReal) (ix3 b ch (Cert.Norm.pos (h, w)))
      = (m ((c : Thread nD τ).loc main_arg0) : S128x768x24x24.Idx → EReal) (ix4 b ch h w) := by
  rw [e_video m c]
  exact cast_video_apply _ _ b ch h w

/-- The flat positional table at (c, 24 h + w) is the row table's term at (c, h) plus the column table's at (c, w). -/
theorem V_table (c : Dev nD) (ch : Fin 768) (h w : Fin 24) :
    (V m c main_call0_v10 : S768x576.Idx → EReal) (ix2 ch (Cert.Norm.pos (h, w)))
      = Cert.Norm.tab (m ((c : Thread nD τ).loc main_arg1)) ch h + Cert.Norm.tab (m ((c : Thread nD τ).loc main_arg2)) ch w := by
  rw [e_table m c]
  refine (cast_table_apply _ _ ch h w).trans ?_
  rw [addf_apply]
  congr 1
  · refine (bcast_last_apply _ _ ch h w).trans ?_
    refine (unit_last_apply _ _ ch h 0).trans ?_
    exact rows_recast_apply _ _ _ ch h
  · refine (bcast_mid_apply _ _ ch h w).trans ?_
    refine (unit_mid_apply _ _ ch 0 w).trans ?_
    exact rows_recast_apply _ _ _ ch w

/-- The column form of gamma at (c, 0) is gamma at c. -/
theorem V_gamma (c : Dev nD) (ch : Fin 768) :
    (V m c main_call0_v11 : S768x1.Idx → EReal) (ix2 ch 0)
      = (m ((c : Thread nD τ).loc main_arg3) : S768.Idx → EReal) (ix1 ch) := by
  rw [e_gamma m c]
  exact cast_column_apply _ _ ch

/-- The column form of beta at (c, 0) is beta at c. -/
theorem V_beta (c : Dev nD) (ch : Fin 768) :
    (V m c main_call0_v12 : S768x1.Idx → EReal) (ix2 ch 0)
      = (m ((c : Thread nD τ).loc main_arg4) : S768.Idx → EReal) (ix1 ch) := by
  rw [e_beta m c]
  exact cast_column_apply _ _ ch

end Cert.KernelIdeal.HostVals

end
-- ==== Proof.KernValue.lean ====
/-
  The kernel program's result array.

  At grid point t the region reads block t of four arrays -- channels 16 t .. 16 t + 15 of the flat video
  [128, 768, 576], of the flat positional table [768, 576] and of the column forms [768, 1] of gamma and beta --
  and writes back block t of the flat result. A channel's statistics need only that channel's entries, all
  of which lie in the one block, so what point t writes back is block t of ONE whole-array function Gk of the
  four arrays (flushed_eq); the 48 blocks tile the result, so the result array after the region IS Gk (final);
  the one host operation after the region re-reads it as [128, 768, 24, 24], entry (b, c, h, w) from flat
  position 24 h + w; and by the bridge between the layouts that is the result array G of the program's
  arguments (out_eq).
-/
import proofs.«137005_g2362232013395_cont_8to1_2029_2_alg».proof.Proof.Gen.KernelIdeal.Frame
import proofs.«137005_g2362232013395_cont_8to1_2029_2_alg».proof.Proof.Spec
import proofs.«137005_g2362232013395_cont_8to1_2029_2_alg».proof.Proof.KernBody
import proofs.«137005_g2362232013395_cont_8to1_2029_2_alg».proof.Proof.KernHost
import Idealize.ShloMosaic.Lib.Pipeline.Value
import Idealize.ShloMosaic.Lib.ValueLayout
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The four arrays the region reads, by the names of their mathematics -/

/-- The flat video. -/
abbrev vid (c : Dev nD) : S128x768x576.Idx → EReal := V m c main_call0_v0
/-- The flat positional table. -/
abbrev ptab (c : Dev nD) : S768x576.Idx → EReal := V m c main_call0_v10
/-- Gamma as a column. -/
abbrev gcol (c : Dev nD) : S768x1.Idx → EReal := V m c main_call0_v11
/-- Beta as a column. -/
abbrev bcol (c : Dev nD) : S768x1.Idx → EReal := V m c main_call0_v12

/-- The flat result as one function of those arrays. -/
abbrev flat (c : Dev nD) : S128x768x576.Idx → EReal := Cert.Norm.Gk (vid m c) (ptab m c) (gcol m c) (bcol m c)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: every window's block on the channel axis is the grid point,
    and 0 on the other axes. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0 ∧ t.val < 48 :=
  (by decide +kernel : ∀ t : Fin grid0.N, _)

/-- Every channel block is some point's. -/
theorem idx_onto : ∀ k : Fin 48, ∃ t : Fin cfg0.N, t.val = k.val :=
  (by decide +kernel : ∀ k : Fin 48, ∃ t : Fin grid0.N, t.val = k.val)

/-! ## The blocks at a point: each is its array read at channel 16 t + cc -/

/-- The channel of the array that local channel cc of block t is. -/
abbrev chan (t : Fin cfg0.N) (cc : Fin 16) : Fin 768 := ⟨16 * t.val + cc.val, by have := (idx_facts t).2.2.2.2.2.2.2.2.2.2.2.2; have := cc.isLt; omega⟩

/-- The four input blocks at a point, at their literal types. -/
abbrev xb0 (c : Dev nD) (t : Fin cfg0.N) : Vec Ideal S128x16x576 .f32 := iblk m c 0 t
abbrev xb1 (c : Dev nD) (t : Fin cfg0.N) : Vec Ideal S16x576 .f32 := iblk m c 1 t
abbrev xb2 (c : Dev nD) (t : Fin cfg0.N) : Vec Ideal S16x1 .f32 := iblk m c 2 t
abbrev xb3 (c : Dev nD) (t : Fin cfg0.N) : Vec Ideal S16x1 .f32 := iblk m c 3 t

theorem blk_vid (c : Dev nD) (t : Fin cfg0.N) (b : Fin 128) (cc : Fin 16) (q : Fin 576) :
    xb0 m c t (ix3 b cc q) = vid m c (ix3 b (chan t cc) q) := by
  obtain ⟨e0, e1, e2, -⟩ := idx_facts t
  show V m c main_call0_v0 (((cfg0.win 0).blk t).view.emb (ix3 b cc q)) = V m c main_call0_v0 (ix3 b (chan t cc) q)
  congr 1
  funext a; apply Fin.ext
  match a with
  | ⟨0, _⟩ => show win0_0.index t (0 : Fin 3) * 128 + 1 * b.val = b.val; omega
  | ⟨1, _⟩ => show win0_0.index t (1 : Fin 3) * 16 + 1 * cc.val = 16 * t.val + cc.val; omega
  | ⟨2, _⟩ => show win0_0.index t (2 : Fin 3) * 576 + 1 * q.val = q.val; omega

theorem blk_ptab (c : Dev nD) (t : Fin cfg0.N) (cc : Fin 16) (q : Fin 576) :
    xb1 m c t (ix2 cc q) = ptab m c (ix2 (chan t cc) q) := by
  obtain ⟨-, -, -, e0, e1, -⟩ := idx_facts t
  show V m c main_call0_v10 (((cfg0.win 1).blk t).view.emb (ix2 cc q)) = V m c main_call0_v10 (ix2 (chan t cc) q)
  congr 1
  funext a; apply Fin.ext
  match a with
  | ⟨0, _⟩ => show win0_1.index t (0 : Fin 2) * 16 + 1 * cc.val = 16 * t.val + cc.val; omega
  | ⟨1, _⟩ => show win0_1.index t (1 : Fin 2) * 576 + 1 * q.val = q.val; omega

theorem blk_gcol (c : Dev nD) (t : Fin cfg0.N) (cc : Fin 16) :
    xb2 m c t (ix2 cc 0) = gcol m c (ix2 (chan t cc) 0) := by
  obtain ⟨-, -, -, -, -, e0, e1, -⟩ := idx_facts t
  show V m c main_call0_v11 (((cfg0.win 2).blk t).view.emb (ix2 cc 0)) = V m c main_call0_v11 (ix2 (chan t cc) 0)
  congr 1
  funext a; apply Fin.ext
  match a with
  | ⟨0, _⟩ => show win0_2.index t (0 : Fin 2) * 16 + 1 * cc.val = 16 * t.val + cc.val; omega
  | ⟨1, _⟩ => show win0_2.index t (1 : Fin 2) * 1 + 1 * 0 = 0; omega

theorem blk_bcol (c : Dev nD) (t : Fin cfg0.N) (cc : Fin 16) :
    xb3 m c t (ix2 cc 0) = bcol m c (ix2 (chan t cc) 0) := by
  obtain ⟨-, -, -, -, -, -, -, e0, e1, -⟩ := idx_facts t
  show V m c main_call0_v12 (((cfg0.win 3).blk t).view.emb (ix2 cc 0)) = V m c main_call0_v12 (ix2 (chan t cc) 0)
  congr 1
  funext a; apply Fin.ext
  match a with
  | ⟨0, _⟩ => show win0_3.index t (0 : Fin 2) * 16 + 1 * cc.val = 16 * t.val + cc.val; omega
  | ⟨1, _⟩ => show win0_3.index t (1 : Fin 2) * 1 + 1 * 0 = 0; omega

theorem emb_out (t : Fin cfg0.N) (b : Fin 128) (cc : Fin 16) (q : Fin 576) :
    ((cfg0.win 4).blk t).view.emb (ix3 b cc q) = ix3 b (chan t cc) q := by
  obtain ⟨-, -, -, -, -, -, -, -, -, e0, e1, e2, -⟩ := idx_facts t
  funext a; apply Fin.ext
  match a with
  | ⟨0, _⟩ => show win0_4.index t (0 : Fin 3) * 128 + 1 * b.val = b.val; omega
  | ⟨1, _⟩ => show win0_4.index t (1 : Fin 3) * 16 + 1 * cc.val = 16 * t.val + cc.val; omega
  | ⟨2, _⟩ => show win0_4.index t (2 : Fin 3) * 576 + 1 * q.val = q.val; omega

/-! ## What a point writes back -/

/-- WHAT POINT t WRITES BACK is block t of the flat result function. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  unfold out0_4
  rw [View.canon_unit_zero hz3]
  simp only [View.ld_unit_zero (S := S128x16x576) hz3, View.ld_unit_zero (S := S16x576) hz2, View.ld_unit_zero (S := S16x1) hz2]
  funext j
  obtain ⟨b, cc, q, rfl⟩ : ∃ (b : Fin 128) (cc : Fin 16) (q : Fin 576), j = ix3 b cc q := ⟨j 0, j 1, j 2, eq_ix3 j⟩
  show k0_pay1 (F := Ideal) (xb0 m c t) (xb1 m c t) (xb2 m c t) (xb3 m c t) (ix3 b cc q)
    = flat m c (((cfg0.win 4).blk t).view.emb (ix3 b cc q))
  refine (Cert.KernelIdeal.Body.pay_apply (xb0 m c t) (xb1 m c t) (xb2 m c t) (xb3 m c t) b cc q).trans ?_
  rw [emb_out]
  refine Eq.trans ?_ (Cert.Norm.Gk_apply (vid m c) (ptab m c) (gcol m c) (bcol m c) b (chan t cc) q).symm
  have hs : (fun (b' : Fin 128) (q' : Fin 576) => xb0 m c t (ix3 b' cc q') + xb1 m c t (ix2 cc q'))
      = Cert.Norm.slabK (vid m c) (ptab m c) (chan t cc) := by
    funext b' q'
    rw [blk_vid, blk_ptab]
    rfl
  rw [hs, blk_gcol, blk_bcol]

/-! ## The blocks tile the result -/

/-- An index of the flat result is in point t's block iff each coordinate is in the block's range on its axis. -/
theorem mem_blk (t : Fin cfg0.N) (i : S128x768x576.Idx) :
    i ∈ ((cfg0.win 4).blk t).view.set ↔ ∀ a : Fin 3, win0_4.index t a * S128x16x576.size a ≤ (i a).val ∧ (i a).val < win0_4.index t a * S128x16x576.size a + S128x16x576.size a := by
  show i ∈ ((View.whole main_call0_v13).slice (win0_4.rect t)).set ↔ _
  rw [View.set_slice_whole, Rect.mem_set_unit]
  exact Iff.rfl

/-- Every index of the flat result lies in the block of the point its channel's sixteen belongs to. -/
theorem cover (i : S128x768x576.Idx) : ∃ t : Fin cfg0.N, (cfg0.win 4).flush t = true ∧ i ∈ ((cfg0.win 4).blk t).view.set := by
  have hi0 : (i 0).val < 128 := (i 0).isLt
  have hi1 : (i 1).val < 768 := (i 1).isLt
  have hi2 : (i 2).val < 576 := (i 2).isLt
  obtain ⟨t, ht⟩ := idx_onto ⟨(i 1).val / 16, by omega⟩
  have ht' : t.val = (i 1).val / 16 := ht
  obtain ⟨-, -, -, -, -, -, -, -, -, e0, e1, e2, -⟩ := idx_facts t
  refine ⟨t, flush0_4 t, ?_⟩
  rw [mem_blk]
  intro a
  match a with
  | ⟨0, _⟩ => show win0_4.index t (0 : Fin 3) * 128 ≤ (i 0).val ∧ (i 0).val < win0_4.index t (0 : Fin 3) * 128 + 128; omega
  | ⟨1, _⟩ => show win0_4.index t (1 : Fin 3) * 16 ≤ (i 1).val ∧ (i 1).val < win0_4.index t (1 : Fin 3) * 16 + 16; omega
  | ⟨2, _⟩ => show win0_4.index t (2 : Fin 3) * 576 ≤ (i 2).val ∧ (i 2).val < win0_4.index t (2 : Fin 3) * 576 + 576; omega

/-- THE FLAT RESULT after the region is the flat result function of the four arrays. -/
theorem final (c : Dev nD) : (dats m 0 c).arrAt 4 cfg0.N = flat m c :=
  (dats m 0 c).arrAt_eq_of_cover 4 (flat m c) (fun t _ => flushed_eq m c t) cover

/-! ## The line after the region, and the result as a function of the arguments -/

/-- The program's result buffer after the run: the flat result re-read as [128, 768, 24, 24]. -/
theorem out_cast (c : Dev nD) :
    (Pipeline.afterTail₀ cfgs (dats m) 0 (V0 m) [hostOps1] c main_v0 : S128x768x24x24.Idx → EReal)
      = shapeCast S128x768x24x24 (flat m c) shapeCasts_S128x768x576_S128x768x24x24 := by
  unfold Pipeline.afterTail₀
  show StableHlo.after hostOps1 _ (Proc.devRef .tc main_v0) = _
  after_results
  rw [Pipeline.withArrays_arr spec0 launch0.win.arr_inj c _ _ 4, final]
  rfl

/-- The flat result re-read as [128, 768, 24, 24]: entry (b, c, h, w) is the flat entry (b, c, 24 h + w). -/
theorem cast_out_apply {α : Type} (x : (⟨3, ![128, 768, 576]⟩ : Shape).Idx → α)
    (hc : (⟨3, ![128, 768, 576]⟩ : Shape).ShapeCasts ⟨4, ![128, 768, 24, 24]⟩)
    (b : Fin 128) (ch : Fin 768) (h w : Fin 24) :
    shapeCast ⟨4, ![128, 768, 24, 24]⟩ x hc (ix4 b ch h w) = x (ix3 b ch (Cert.Norm.pos (h, w))) :=
  shapeCast_apply x hc _ _ (by
    rw [Shape.rowMajor_val_three, Shape.rowMajor_val_four]
    show (b.val * 768 + ch.val) * 576 + (24 * h.val + w.val) = ((b.val * 768 + ch.val) * 24 + h.val) * 24 + w.val
    omega)

/-- THE PROGRAM'S RESULT is the result array G of its five arguments. -/
theorem out_eq (c : Dev nD) :
    (Pipeline.afterTail₀ cfgs (dats m) 0 (V0 m) [hostOps1] c main_v0 : S128x768x24x24.Idx → EReal)
      = Cert.Norm.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [out_cast]
  funext i
  obtain ⟨b, ch, h, w, rfl⟩ : ∃ (b : Fin 128) (ch : Fin 768) (h w : Fin 24), i = ix4 b ch h w := ⟨i 0, i 1, i 2, i 3, eq_ix4 i⟩
  rw [cast_out_apply]
  exact Cert.Norm.Gk_eq_G (vid m c) (ptab m c) (gcol m c) (bcol m c) _ _ _ _ _
    (Cert.KernelIdeal.HostVals.V_video m c) (Cert.KernelIdeal.HostVals.V_table m c)
    (Cert.KernelIdeal.HostVals.V_gamma m c) (Cert.KernelIdeal.HostVals.V_beta m c) b ch h w

/-! ## The run, read -/

/-- Every weakly fair execution of the kernel program terminates with the result buffer at G of the arguments and
    the arguments unchanged. -/
theorem run : θ_run defs (onTc (τ := τ) (main (F := Ideal))) ⟨m, fun _ => 0, ρ⟩ fun r => ∀ c : Dev nD,
      r.2.mem ((c.tc : Thread nD τ).loc main_v0)
        = Cert.Norm.G (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefTerm.lean ====
/-
  What the reference program computes, as ONE pure term of its five argument arrays, spelled with the
  reference's own host operations in the reference's own order (any float instance F):

    takeRows tbl   the fill-mode take of rows 0..23 of a [100, 768] table: the row numbers iota 24, a negative one
                   wrapped by 100, the wrapped column tested against 0 and 99, the test reduced over its unit axis,
                   the rows gathered, and the gathered rows or the fill word selected by the test;
    shifted        the video plus the row table's take re-read as [1, 768, 24, 1] and broadcast, plus the column
                   table's take re-read as [1, 768, 1, 24] and broadcast;
    chanMean x     per channel, the sum over batch and image divided by the count 73728, kept as [1, 768, 1, 1];
    chanVar x      per channel, the sum of the squared differences from that mean divided by (73728 - 0), the
                   divisor's positivity tested and the quotient or the fill word selected by the test;
    refOut         ((shifted - mean) / sqrt (var + eps)) * gamma + beta, the per-channel arrays broadcast.
-/
import proofs.«137005_g2362232013395_cont_8to1_2029_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The row numbers 0..23. -/
def rowIds : IVec S24 32 := iotaInDim S24 32 0

/-- The row numbers with a negative one wrapped by the table's 100 rows, as a column [24, 1]. -/
def rowCol : IVec S24x1 32 :=
  broadcastInDim S24x1 ![0] bcast_S24_S24x1_0
    (select (cmpi .slt rowIds (broadcastInDim S24 ![] bcast_S_S24 (constantI S_ 32 0#32)))
      (addi rowIds (broadcastInDim S24 ![] bcast_S_S24 (constantI S_ 32 100#32))) rowIds)

/-- The fill-mode take of rows 0..23 of a table. -/
def takeRows (tbl : Vec F S100x768 .f32) : Vec F S24x768 .f32 :=
  select
    (broadcastInDim S24x768 ![0] bcast_S24_S24x768_0
      (Host.reduce IntOp.andi
        (andi (cmpi .sge rowCol (broadcastInDim S24x1 ![] bcast_S_S24x1 (constantI S_ 32 0#32)))
              (cmpi .sle rowCol (broadcastInDim S24x1 ![0, 1] bcast_S1x1_S24x1_0_1
                (broadcastInDim S1x1 ![1] bcast_S1_S1x1_1 (constantI S1 32 99#32)))))
        (constantI S_ 1 1#1) reducesTo_S24x1_S24_d1 h_S_))
    (Host.gather gather_S100x768_S24x1_S24x768_1_0_n_n_0_1_1768 tbl rowCol)
    (broadcastInDim S24x768 ![] bcast_S_S24x768 (constant S_ .f32 0x7FC00000#32))

/-- The video with both positional terms added. -/
def shifted (v : Vec F S128x768x24x24 .f32) (rt ct : Vec F S100x768 .f32) : Vec F S128x768x24x24 .f32 :=
  addf
    (addf v (broadcastInDim S128x768x24x24 ![0, 1, 2, 3] bcast_S1x768x24x1_S128x768x24x24_0_1_2_3
      (shapeCast S1x768x24x1 (takeRows rt) shapeCasts_S24x768_S1x768x24x1)))
    (broadcastInDim S128x768x24x24 ![0, 1, 2, 3] bcast_S1x768x1x24_S128x768x24x24_0_1_2_3
      (shapeCast S1x768x1x24 (takeRows ct) shapeCasts_S24x768_S1x768x1x24))

/-- The per-channel sum over batch and image, divided by the count, as [1, 768, 1, 1]. -/
def chanMean (x : Vec F S128x768x24x24 .f32) : Vec F S1x768x1x1 .f32 :=
  Host.divf
    (broadcastInDim S1x768x1x1 ![1] bcast_S768_S1x768x1x1_1
      (Host.reduceAdd x (constant S_ .f32 0x00000000#32) reducesTo_S128x768x24x24_S768_d0_2_3 h_S_))
    (broadcastInDim S1x768x1x1 ![] bcast_S_S1x768x1x1 (constant S_ .f32 0x47900000#32))

/-- The divisor of the variance: the count minus the (zero) degrees of freedom. -/
def varDen : Vec F S_ .f32 := subf (constant S_ .f32 0x47900000#32) (sitofp .f32 (constantI S_ 32 0#32))

/-- The per-channel biased variance, as [1, 768, 1, 1]. -/
def chanVar (x : Vec F S128x768x24x24 .f32) : Vec F S1x768x1x1 .f32 :=
  select
    (broadcastInDim S1x768x1x1 ![] bcast_S_S1x768x1x1 (cmpf .ogt (varDen (F := F)) (constant S_ .f32 0x00000000#32)))
    (Host.divf
      (broadcastInDim S1x768x1x1 ![1] bcast_S768_S1x768x1x1_1
        (Host.reduceAdd
          (mulf (subf x (broadcastInDim S128x768x24x24 ![0, 1, 2, 3] bcast_S1x768x1x1_S128x768x24x24_0_1_2_3 (chanMean x)))
                (subf x (broadcastInDim S128x768x24x24 ![0, 1, 2, 3] bcast_S1x768x1x1_S128x768x24x24_0_1_2_3 (chanMean x))))
          (constant S_ .f32 0x00000000#32) reducesTo_S128x768x24x24_S768_d0_2_3 h_S_))
      (broadcastInDim S1x768x1x1 ![] bcast_S_S1x768x1x1 (varDen (F := F))))
    (broadcastInDim S1x768x1x1 ![] bcast_S_S1x768x1x1 (id (constant S_ .f32 0x7FC00000#32)))

/-- The reference's normalisation of an array x by a scale and a shift per channel. -/
def normalize (x : Vec F S128x768x24x24 .f32) (g be : Vec F S768 .f32) : Vec F S128x768x24x24 .f32 :=
  addf
    (mulf
      (Host.divf
        (subf x (broadcastInDim S128x768x24x24 ![0, 1, 2, 3] bcast_S1x768x1x1_S128x768x24x24_0_1_2_3 (chanMean x)))
        (broadcastInDim S128x768x24x24 ![0, 1, 2, 3] bcast_S1x768x1x1_S128x768x24x24_0_1_2_3
          (Host.sqrt (addf (chanVar x) (broadcastInDim S1x768x1x1 ![] bcast_S_S1x768x1x1 (constant S_ .f32 0x2B8CBCCC#32))))))
      (broadcastInDim S128x768x24x24 ![0, 1, 2, 3] bcast_S1x768x1x1_S128x768x24x24_0_1_2_3
        (shapeCast S1x768x1x1 g shapeCasts_S768_S1x768x1x1)))
    (broadcastInDim S128x768x24x24 ![0, 1, 2, 3] bcast_S1x768x1x1_S128x768x24x24_0_1_2_3
      (shapeCast S1x768x1x1 be shapeCasts_S768_S1x768x1x1))

/-- The reference's result as one term of its five arguments. -/
def refOut (v : Vec F S128x768x24x24 .f32) (rt ct : Vec F S100x768 .f32) (g be : Vec F S768 .f32) :
    Vec F S128x768x24x24 .f32 :=
  normalize (shifted v rt ct) g be

end Cert.ReferenceIdeal.RefTerm

end
-- ==== Proof.RefRun.lean ====
/-
  The reference program's run: @main is a straight line of host operations (the calls to the outlined
  functions unfolded at their call sites), every weakly fair execution of it terminates, and the result
  buffer ends at the pure term refOut of the argument arrays, which end unchanged.
-/
import proofs.«137005_g2362232013395_cont_8to1_2029_2_alg».proof.Proof.Gen.ReferenceIdeal
import proofs.«137005_g2362232013395_cont_8to1_2029_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's ninety-eight operations in order, each call unfolded at its site over that call's buffers. The iota
    of the row numbers; the take of the row table (twenty-three: the two wrap constants and their broadcasts, the
    sign test, the shifted numbers, the select between them, the column, the bounds 0 and 99 laid out as columns,
    the two range tests and their conjunction, its reduction over the unit axis, the gather, the test along each
    row, the fill word and its broadcast, the final select); the take re-read as [1, 768, 24, 1], broadcast and
    added to the video; the same twenty-seven for the column table, re-read as [1, 768, 1, 24]; the per-channel
    sum, its broadcast and the division by the count 73728; the variance (twenty-three: sum, mean, difference,
    square, the divisor 73728 - 0, the sum of squares, its quotient, the divisor's positivity test, and the select
    between the quotient and the fill word, three operations); then the difference from the mean, the variance plus
    epsilon, its square root, the quotient, and the scale and the shift re-read as [1, 768, 1, 1] and broadcast. -/
abbrev ops : List (HloOp τ sig (Elt F)) :=
  [ nullary main_v0 (iotaInDim S24 32 0),
    TRef.nullary main_call0.c (constantI S_ 32 0#32),
    TRef.unary main_call0.c main_call0.v0 (broadcastInDim S24 ![] bcast_S_S24),
    TRef.binary (.of main_v0) main_call0.v0 main_call0.v1 (cmpi .slt),
    TRef.nullary main_call0.c_0 (constantI S_ 32 100#32),
    TRef.unary main_call0.c_0 main_call0.v2 (broadcastInDim S24 ![] bcast_S_S24),
    TRef.binary (.of main_v0) main_call0.v2 main_call0.v3 addi,
    TRef.ternary main_call0.v1 main_call0.v3 (.of main_v0) main_call0.call0.v0 select,
    TRef.unary main_call0.call0.v0 main_call0.v5 (broadcastInDim S24x1 ![0] bcast_S24_S24x1_0),
    TRef.nullary main_call0.c_1 (constantI S1 32 99#32),
    TRef.nullary main_call0.c_2 (constantI S_ 32 0#32),
    TRef.unary main_call0.c_2 main_call0.v6 (broadcastInDim S24x1 ![] bcast_S_S24x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S24x1 ![0, 1] bcast_S1x1_S24x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S24x1_S24_d1 h_S_),
    TRef.binary (.of main_arg1) main_call0.v5 main_call0.v13 (fun x i => Host.gather gather_S100x768_S24x1_S24x768_1_0_n_n_0_1_1768 x i),
    TRef.unary main_call0.v12 main_call0.v14 (broadcastInDim S24x768 ![0] bcast_S24_S24x768_0),
    TRef.nullary main_call0.cst (constant S_ .f32 0x7FC00000#32),
    TRef.unary main_call0.cst main_call0.v15 (broadcastInDim S24x768 ![] bcast_S_S24x768),
    TRef.ternary main_call0.v14 main_call0.v13 main_call0.v15 main_call0.v16 select,
    reshape main_v1 main_v2 rfl shapeCasts_S24x768_S1x768x24x1,
    unary main_v2 main_v3 (broadcastInDim S128x768x24x24 ![0, 1, 2, 3] bcast_S1x768x24x1_S128x768x24x24_0_1_2_3 : (⟨S1x768x24x1, .f32⟩ : BufTy).Contents (Elt F) → (⟨S128x768x24x24, .f32⟩ : BufTy).Contents (Elt F)),
    binary main_arg0 main_v3 main_v4 (addf : (⟨S128x768x24x24, .f32⟩ : BufTy).Contents (Elt F) → (⟨S128x768x24x24, .f32⟩ : BufTy).Contents (Elt F) → (⟨S128x768x24x24, .f32⟩ : BufTy).Contents (Elt F)),
    nullary main_v5 (iotaInDim S24 32 0),
    TRef.nullary main_call1.c (constantI S_ 32 0#32),
    TRef.unary main_call1.c main_call1.v0 (broadcastInDim S24 ![] bcast_S_S24),
    TRef.binary (.of main_v5) main_call1.v0 main_call1.v1 (cmpi .slt),
    TRef.nullary main_call1.c_0 (constantI S_ 32 100#32),
    TRef.unary main_call1.c_0 main_call1.v2 (broadcastInDim S24 ![] bcast_S_S24),
    TRef.binary (.of main_v5) main_call1.v2 main_call1.v3 addi,
    TRef.ternary main_call1.v1 main_call1.v3 (.of main_v5) main_call1.call0.v0 select,
    TRef.unary main_call1.call0.v0 main_call1.v5 (broadcastInDim S24x1 ![0] bcast_S24_S24x1_0),
    TRef.nullary main_call1.c_1 (constantI S1 32 99#32),
    TRef.nullary main_call1.c_2 (constantI S_ 32 0#32),
    TRef.unary main_call1.c_2 main_call1.v6 (broadcastInDim S24x1 ![] bcast_S_S24x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S24x1 ![0, 1] bcast_S1x1_S24x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S24x1_S24_d1 h_S_),
    TRef.binary (.of main_arg2) main_call1.v5 main_call1.v13 (fun x i => Host.gather gather_S100x768_S24x1_S24x768_1_0_n_n_0_1_1768 x i),
    TRef.unary main_call1.v12 main_call1.v14 (broadcastInDim S24x768 ![0] bcast_S24_S24x768_0),
    TRef.nullary main_call1.cst (constant S_ .f32 0x7FC00000#32),
    TRef.unary main_call1.cst main_call1.v15 (broadcastInDim S24x768 ![] bcast_S_S24x768),
    TRef.ternary main_call1.v14 main_call1.v13 main_call1.v15 main_call1.v16 select,
    reshape main_v6 main_v7 rfl shapeCasts_S24x768_S1x768x1x24,
    unary main_v7 main_v8 (broadcastInDim S128x768x24x24 ![0, 1, 2, 3] bcast_S1x768x1x24_S128x768x24x24_0_1_2_3 : (⟨S1x768x1x24, .f32⟩ : BufTy).Contents (Elt F) → (⟨S128x768x24x24, .f32⟩ : BufTy).Contents (Elt F)),
    binary main_v4 main_v8 main_v9 (addf : (⟨S128x768x24x24, .f32⟩ : BufTy).Contents (Elt F) → (⟨S128x768x24x24, .f32⟩ : BufTy).Contents (Elt F) → (⟨S128x768x24x24, .f32⟩ : BufTy).Contents (Elt F)),
    nullary main_cst (constant S_ .f32 0x00000000#32),
    binary main_v9 main_cst main_v10 ((fun x v => Host.reduceAdd x v reducesTo_S128x768x24x24_S768_d0_2_3 h_S_) : (⟨S128x768x24x24, .f32⟩ : BufTy).Contents (Elt F) → (⟨S_, .f32⟩ : BufTy).Contents (Elt F) → (⟨S768, .f32⟩ : BufTy).Contents (Elt F)),
    unary main_v10 main_v11 (broadcastInDim S1x768x1x1 ![1] bcast_S768_S1x768x1x1_1 : (⟨S768, .f32⟩ : BufTy).Contents (Elt F) → (⟨S1x768x1x1, .f32⟩ : BufTy).Contents (Elt F)),
    nullary main_cst_0 (constant S_ .f32 0x47900000#32),
    unary main_cst_0 main_v12 (broadcastInDim S1x768x1x1 ![] bcast_S_S1x768x1x1 : (⟨S_, .f32⟩ : BufTy).Contents (Elt F) → (⟨S1x768x1x1, .f32⟩ : BufTy).Contents (Elt F)),
    binary main_v11 main_v12 main_v13 (Host.divf : (⟨S1x768x1x1, .f32⟩ : BufTy).Contents (Elt F) → (⟨S1x768x1x1, .f32⟩ : BufTy).Contents (Elt F) → (⟨S1x768x1x1, .f32⟩ : BufTy).Contents (Elt F)),
    nullary main_c (constantI S_ 32 0#32),
    TRef.nullary main_call2.cst (constant S_ .f32 0x00000000#32),
    TRef.binary (.of main_v9) main_call2.cst main_call2.v0 (fun x v => Host.reduceAdd x v reducesTo_S128x768x24x24_S768_d0_2_3 h_S_),
    TRef.unary main_call2.v0 main_call2.v1 (broadcastInDim S1x768x1x1 ![1] bcast_S768_S1x768x1x1_1),
    TRef.nullary main_call2.cst_0 (constant S_ .f32 0x47900000#32),
    TRef.unary main_call2.cst_0 main_call2.v2 (broadcastInDim S1x768x1x1 ![] bcast_S_S1x768x1x1),
    TRef.binary main_call2.v1 main_call2.v2 main_call2.v3 Host.divf,
    TRef.unary main_call2.v3 main_call2.v4 (broadcastInDim S128x768x24x24 ![0, 1, 2, 3] bcast_S1x768x1x1_S128x768x24x24_0_1_2_3),
    TRef.binary (.of main_v9) main_call2.v4 main_call2.v5 subf,
    TRef.binary main_call2.v5 main_call2.v5 main_call2.v6 mulf,
    TRef.unary (.of main_c) main_call2.v7 (sitofp .f32),
    TRef.nullary main_call2.cst_1 (constant S_ .f32 0x47900000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S128x768x24x24_S768_d0_2_3 h_S_),
    TRef.unary main_call2.v9 main_call2.v10 (broadcastInDim S1x768x1x1 ![1] bcast_S768_S1x768x1x1_1),
    TRef.unary main_call2.v8 main_call2.v11 (broadcastInDim S1x768x1x1 ![] bcast_S_S1x768x1x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S1x768x1x1 ![] bcast_S_S1x768x1x1),
    TRef.ternary main_call2.v13 main_call2.v12 main_call2.call0.v1 main_call2.call0.v2 (fun p a b => select (broadcastInDim S1x768x1x1 ![] bcast_S_S1x768x1x1 p) a b),
    unary main_v13 main_v15 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    binary main_v9 main_v15 main_v16 (subf : (⟨S128x768x24x24, .f32⟩ : BufTy).Contents (Elt F) → (⟨S128x768x24x24, .f32⟩ : BufTy).Contents (Elt F) → (⟨S128x768x24x24, .f32⟩ : BufTy).Contents (Elt F)),
    nullary main_cst_1 (constant S_ .f32 0x2B8CBCCC#32),
    unary main_cst_1 main_v17 (broadcastInDim S1x768x1x1 ![] bcast_S_S1x768x1x1 : (⟨S_, .f32⟩ : BufTy).Contents (Elt F) → (⟨S1x768x1x1, .f32⟩ : BufTy).Contents (Elt F)),
    binary main_v14 main_v17 main_v18 (addf : (⟨S1x768x1x1, .f32⟩ : BufTy).Contents (Elt F) → (⟨S1x768x1x1, .f32⟩ : BufTy).Contents (Elt F) → (⟨S1x768x1x1, .f32⟩ : BufTy).Contents (Elt F)),
    unary main_v18 main_v19 (Host.sqrt : (⟨S1x768x1x1, .f32⟩ : BufTy).Contents (Elt F) → (⟨S1x768x1x1, .f32⟩ : BufTy).Contents (Elt F)),
    unary main_v19 main_v20 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    binary main_v16 main_v20 main_v21 (Host.divf : (⟨S128x768x24x24, .f32⟩ : BufTy).Contents (Elt F) → (⟨S128x768x24x24, .f32⟩ : BufTy).Contents (Elt F) → (⟨S128x768x24x24, .f32⟩ : BufTy).Contents (Elt F)),
    reshape main_arg3 main_v22 rfl shapeCasts_S768_S1x768x1x1,
    unary main_v22 main_v23 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    binary main_v21 main_v23 main_v24 (mulf : (⟨S128x768x24x24, .f32⟩ : BufTy).Contents (Elt F) → (⟨S128x768x24x24, .f32⟩ : BufTy).Contents (Elt F) → (⟨S128x768x24x24, .f32⟩ : BufTy).Contents (Elt F)),
    reshape main_arg4 main_v25 rfl shapeCasts_S768_S1x768x1x1,
    unary main_v25 main_v26 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    binary main_v24 main_v26 main_v27 (addf : (⟨S128x768x24x24, .f32⟩ : BufTy).Contents (Elt F) → (⟨S128x768x24x24, .f32⟩ : BufTy).Contents (Elt F) → (⟨S128x768x24x24, .f32⟩ : BufTy).Contents (Elt F)) ]

set_option maxRecDepth 8192 in
set_option maxHeartbeats 1600000 in
/-- @main is that straight line: with the functions' bodies unfolded at their calls and sequencing reassociated,
    both sides are the same chain of single operations. -/
theorem main_eq (c : Dev nD) : main (F := F) c = seq ops := by
  simp only [main, fn_take.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., nullary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., reshape_bufs_sub .., unary_bufs_sub .., binary_bufs_sub .., reshape_bufs_sub .., unary_bufs_sub .., binary_bufs_sub ..⟩

attribute [local irreducible] Host.reduce Host.reduceAdd Host.gather in
set_option maxRecDepth 8192 in
set_option maxHeartbeats 1000000 in
/-- The fold of the operations at the result buffer is refOut of the five arguments' contents: each operation's
    result is read at its own buffer and passed over at every other, which leaves the operations' functions
    composed in program order over the argument buffers; the typed references' transports are the identity at
    these literal buffers, so that composition is refOut's own term. The two reductions and the gather stay
    folded: the equation never looks inside them. -/
theorem out_eq (V : Valuation τ sig (Elt F)) :
    after ops V (main_v27 : DevRef τ sig)
      = RefTerm.refOut (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument buffer: each keeps its contents through the fold. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On every device, for any float values, from any memory with zero counters: every weakly fair execution of
    @main terminates with the result at refOut of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = RefTerm.refOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.LibTakeRows.lean ====
/-
  Pure facts about two host idioms, stated at any extents and for any element type.

  jnp's fill-mode take of rows.  `jnp.take(table, s, axis = 0, mode = "fill")` prints as: wrap a negative
  index (`select (s < 0) (s + N) s`), lay the wrapped indices out as a column, test the column against
  `0` and `N - 1`, reduce the test over the unit axis, gather the rows, and select between the gathered
  rows and a fill value by the test broadcast along each row.  Where the index word is already in
  `[0, N)` the wrap leaves it alone and the test is 1, so the take reads the gathered row
  (`take_fill_apply`); the gather itself is never opened.

  A concatenation of four pieces of one width along the second axis, read at a column
  `128 k + q`, is piece `k` at column `q` (`concat4_apply`).

  And the fold of a line of host operations over buffer contents splits where the line does
  (`after_append`).
-/
import Idealize.ShloMosaic.Lib.ReduceAll
import Idealize.ShloMosaic.Lib.ValueIdx
import Idealize.ShloMosaic.Lib.Pipeline.Value
import Idealize.ShloMosaic.Lib.StableHlo.Run

noncomputable section

namespace Cert.Proof.TakeRows

open Idealize.ShloMosaic Idealize.ShloMosaic.ValueIdx

/-! ## Words -/

theorem toInt_zero32 : (0#32 : BitVec 32).toInt = 0 := by decide

/-- The wrap of a negative index leaves a non-negative word alone. -/
theorem wrap_of_nonneg (w n : BitVec 32) (h0 : 0 ≤ w.toInt) :
    Scalar.select (IntOp.cmpi .slt w 0#32) (IntOp.addi w n) w = w := by
  have hne : ¬ IntOp.cmpi .slt w 0#32 = 1#1 := by
    rw [IntOp.cmpi_slt, toInt_zero32]; omega
  rw [eq_zero_of_ne_one hne, select_zero]

/-- The range test of a word between 0 and the last index is 1. -/
theorem inb_of_range (w hi : BitVec 32) (h0 : 0 ≤ w.toInt) (h1 : w.toInt ≤ hi.toInt) :
    IntOp.andi (IntOp.cmpi .sge w 0#32) (IntOp.cmpi .sle w hi) = 1#1 := by
  rw [IntOp.andi_eq_one, IntOp.cmpi_sge, IntOp.cmpi_sle, toInt_zero32]
  exact ⟨h0, h1⟩

/-! ## A reduction by `and` whose operands are all 1 -/

/-- A left fold by `and` from 1 over words that are all 1 is 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_all_one f l _ ?_ fun n hn => hl n (List.mem_cons_of_mem _ hn)
    rw [h, hl a List.mem_cons_self]; rfl

/-- A `stablehlo.reduce` by `and` from 1 is 1 at `j` when every operand element that reduces into `j` is 1. -/
theorem reduce_andi_eq_one_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl]
  refine foldl_andi_all_one x _ _ hinit fun i hi => hx i ?_
  exact of_decide_eq_true (List.mem_filter.1 hi).2

/-- The one index of an [E, 1] column that reduces, over the unit axis, into row `e`. -/
theorem drop_unit_col {E : Nat} (h : (⟨2, ![E, 1]⟩ : Shape).ReducesTo [1] ⟨1, ![E]⟩)
    (i : (⟨2, ![E, 1]⟩ : Shape).Idx) (e : Fin E) (hd : h.drop i = ix1 e) : i = ix2 e 0 := by
  have hv : (h.drop i 0 : Nat) = i 0 := Shape.ReducesTo.drop_apply_val h i 0
  rw [hd] at hv
  funext a
  match a with
  | ⟨0, _⟩ => exact Fin.ext hv.symm
  | ⟨1, h1⟩ =>
    apply Fin.ext
    have hlt := (i ⟨1, h1⟩).isLt
    have hs : (⟨2, ![E, 1]⟩ : Shape).size ⟨1, h1⟩ = 1 := rfl
    show (i ⟨1, h1⟩).val = 0
    omega

/-- The reduction by `and` of an [E, 1] column over its unit axis is 1 at row `e` when the column is. -/
theorem reduce_unit_col_eq_one {E : Nat} {u : Shape} (x : IVec ⟨2, ![E, 1]⟩ 1) (init : IVec u 1)
    (h : (⟨2, ![E, 1]⟩ : Shape).ReducesTo [1] ⟨1, ![E]⟩) (hu : 0 < u.numel) (e : Fin E)
    (hinit : init (Shape.Idx.first hu) = 1#1) (hx : x (ix2 e 0) = 1#1) :
    Host.reduce IntOp.andi x init h hu (ix1 e) = 1#1 :=
  reduce_andi_eq_one_of_all x init h hu _ hinit fun i hi => by rw [drop_unit_col h i e hi]; exact hx

/-! ## Broadcasts read at an index -/

/-- A vector laid along the first axis of an [E, C] rectangle reads, at (e, q), the vector at `e`. -/
theorem bcast_axis0_apply {α : Type} {E C : Nat} (hb : (⟨1, ![E]⟩ : Shape).BroadcastsInDim ⟨2, ![E, C]⟩ ![0])
    (x : (⟨1, ![E]⟩ : Shape).Idx → α) (e : Fin E) (q : Fin C) :
    broadcastInDim ⟨2, ![E, C]⟩ ![0] hb x (ix2 e q) = x (ix1 e) := by
  refine broadcastInDim_apply ![0] hb x (ix2 e q) (ix1 e) fun a => ?_
  match a with
  | ⟨0, _⟩ =>
    show e.val = if E = 1 then 0 else e.val
    have := e.isLt
    split <;> omega

/-! ## The fill-mode take at a row whose index is in range -/

/-- Where the index word of row `e` lies between 0 and `hiw` (the last row of the table), the fill-mode take
    reads the gathered rows `g`: the wrap leaves the word alone, both range tests are 1, so is their
    reduction over the unit axis, and the select by its broadcast along the row takes the first branch.
    The arrays of constants enter through their values at row `e`. -/
theorem take_fill_apply {α : Type} {E C : Nat} {u : Shape}
    (s zero nwrap : IVec ⟨1, ![E]⟩ 32) (zero2 hi : IVec ⟨2, ![E, 1]⟩ 32) (one : IVec u 1)
    (g fill : (⟨2, ![E, C]⟩ : Shape).Idx → α)
    (hb1 : (⟨1, ![E]⟩ : Shape).BroadcastsInDim ⟨2, ![E, 1]⟩ ![0])
    (hr : (⟨2, ![E, 1]⟩ : Shape).ReducesTo [1] ⟨1, ![E]⟩) (hu : 0 < u.numel)
    (hb2 : (⟨1, ![E]⟩ : Shape).BroadcastsInDim ⟨2, ![E, C]⟩ ![0])
    (e : Fin E) (q : Fin C) (hiw : BitVec 32)
    (hzero : zero (ix1 e) = 0#32) (hzero2 : zero2 (ix2 e 0) = 0#32) (hhi : hi (ix2 e 0) = hiw)
    (hone : one (Shape.Idx.first hu) = 1#1)
    (h0 : 0 ≤ (s (ix1 e)).toInt) (h1 : (s (ix1 e)).toInt ≤ hiw.toInt) :
    select
      (broadcastInDim ⟨2, ![E, C]⟩ ![0] hb2
        (Host.reduce IntOp.andi
          (andi (cmpi .sge (broadcastInDim ⟨2, ![E, 1]⟩ ![0] hb1 (select (cmpi .slt s zero) (addi s nwrap) s)) zero2)
                (cmpi .sle (broadcastInDim ⟨2, ![E, 1]⟩ ![0] hb1 (select (cmpi .slt s zero) (addi s nwrap) s)) hi))
          one hr hu))
      g fill (ix2 e q) = g (ix2 e q) := by
  have hidx : broadcastInDim ⟨2, ![E, 1]⟩ ![0] hb1 (select (cmpi .slt s zero) (addi s nwrap) s) (ix2 e 0) = s (ix1 e) := by
    rw [bcast_axis0_apply]
    show Scalar.select (IntOp.cmpi .slt (s (ix1 e)) (zero (ix1 e))) (IntOp.addi (s (ix1 e)) (nwrap (ix1 e))) (s (ix1 e)) = _
    rw [hzero, wrap_of_nonneg _ _ h0]
  have hmask : Host.reduce IntOp.andi
      (andi (cmpi .sge (broadcastInDim ⟨2, ![E, 1]⟩ ![0] hb1 (select (cmpi .slt s zero) (addi s nwrap) s)) zero2)
            (cmpi .sle (broadcastInDim ⟨2, ![E, 1]⟩ ![0] hb1 (select (cmpi .slt s zero) (addi s nwrap) s)) hi))
      one hr hu (ix1 e) = 1#1 := by
    refine reduce_unit_col_eq_one _ one hr hu e hone ?_
    show IntOp.andi (IntOp.cmpi .sge (broadcastInDim ⟨2, ![E, 1]⟩ ![0] hb1 (select (cmpi .slt s zero) (addi s nwrap) s) (ix2 e 0)) (zero2 (ix2 e 0)))
        (IntOp.cmpi .sle (broadcastInDim ⟨2, ![E, 1]⟩ ![0] hb1 (select (cmpi .slt s zero) (addi s nwrap) s) (ix2 e 0)) (hi (ix2 e 0))) = 1#1
    rw [hidx, hzero2, hhi]
    exact inb_of_range _ _ h0 h1
  rw [select_apply, bcast_axis0_apply, hmask, select_one]

/-! ## Four pieces of width 128 side by side -/

/-- A concatenation of four [E, 128] pieces along the second axis reads, at column `128 k + q`, piece `k` at column `q`. -/
theorem concat4_apply {α : Type} {E : Nat} (x0 x1 x2 x3 : (⟨2, ![E, 128]⟩ : Shape).Idx → α)
    (h : Shape.Concatenates (([⟨⟨2, ![E, 128]⟩, x0⟩, ⟨⟨2, ![E, 128]⟩, x1⟩, ⟨⟨2, ![E, 128]⟩, x2⟩, ⟨⟨2, ![E, 128]⟩, x3⟩] :
      List ((s : Shape) × (s.Idx → α))).map (·.1)) ⟨2, ![E, 512]⟩ 1)
    (e : Fin E) (k : Fin 4) (q : Fin 128) (j : Fin 512) (hj : j.val = 128 * k.val + q.val) :
    concatenate ⟨2, ![E, 512]⟩ 1 [⟨⟨2, ![E, 128]⟩, x0⟩, ⟨⟨2, ![E, 128]⟩, x1⟩, ⟨⟨2, ![E, 128]⟩, x2⟩, ⟨⟨2, ![E, 128]⟩, x3⟩] h (ix2 e j)
      = (![x0, x1, x2, x3] k) (ix2 e q) := by
  have hoff : ∀ b : Fin (⟨2, ![E, 128]⟩ : Shape).rank, b.cast (rfl : (⟨2, ![E, 128]⟩ : Shape).rank = (⟨2, ![E, 512]⟩ : Shape).rank) ≠ 1 →
      ((ix2 e q : (⟨2, ![E, 128]⟩ : Shape).Idx) b).val = ((ix2 e j : (⟨2, ![E, 512]⟩ : Shape).Idx) (b.cast rfl)).val := by
    intro b hb
    match b with
    | ⟨0, _⟩ => rfl
    | ⟨1, _⟩ => exact absurd rfl hb
  match k, hj with
  | ⟨0, _⟩, hj =>
    have hj' : j.val = 128 * 0 + q.val := hj
    exact concatenate_apply_piece 1 _ h (ix2 e j) 0 (by show 0 < 4; omega) ⟨2, ![E, 128]⟩ x0 rfl rfl 0 rfl (ix2 e q) hoff (by show 0 + q.val = j.val; omega)
  | ⟨1, _⟩, hj =>
    have hj' : j.val = 128 * 1 + q.val := hj
    exact concatenate_apply_piece 1 _ h (ix2 e j) 1 (by show 1 < 4; omega) ⟨2, ![E, 128]⟩ x1 rfl rfl 128 rfl (ix2 e q) hoff (by show 128 + q.val = j.val; omega)
  | ⟨2, _⟩, hj =>
    have hj' : j.val = 128 * 2 + q.val := hj
    exact concatenate_apply_piece 1 _ h (ix2 e j) 2 (by show 2 < 4; omega) ⟨2, ![E, 128]⟩ x2 rfl rfl 256 rfl (ix2 e q) hoff (by show 256 + q.val = j.val; omega)
  | ⟨3, _⟩, hj =>
    have hj' : j.val = 128 * 3 + q.val := hj
    exact concatenate_apply_piece 1 _ h (ix2 e j) 3 (by show 3 < 4; omega) ⟨2, ![E, 128]⟩ x3 rfl rfl 384 rfl (ix2 e q) hoff (by show 384 + q.val = j.val; omega)

/-! ## The fold of a line of operations splits where the line does -/

open Idealize.ShloMosaic.StableHlo Idealize.SL.Sem in
/-- Two lines run one after the other from contents `V`: the second from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Proof.TakeRows

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.RefValue.lean ====
/-
  The reference's term, read entry by entry at the ideal instance, is the result array G.
  The fill-mode take of rows 0..23 reads the table's rows 0..23 (the row numbers are in range, so the wrap
  and the range test do nothing and the fill word is never selected); re-read as [1, 768, 24, 1] (and
  [1, 768, 1, 24]) and broadcast it contributes the table's term tab at (c, h) (at (c, w)); the host sums
  over batch and image are the slab's total; the divisor 73728 - 0 is the count, and positive, so the
  variance's select takes the quotient; the rest is the normalisation bnR entry by entry.
-/
import proofs.«137005_g2362232013395_cont_8to1_2029_2_alg».proof.Proof.RefTerm
import proofs.«137005_g2362232013395_cont_8to1_2029_2_alg».proof.Proof.Spec
import proofs.«137005_g2362232013395_cont_8to1_2029_2_alg».proof.Proof.LibSums
import proofs.«137005_g2362232013395_cont_8to1_2029_2_alg».proof.Proof.LibTakeRows
import proofs.«137005_g2362232013395_cont_8to1_2029_2_alg».proof.Proof.LibGatherScatter
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The take of rows 0..23 -/

/-- The word of a row number below 24, read signed, is the number. -/
theorem toInt_row : ∀ e : Fin 24, (BitVec.ofNat 32 e.val).toInt = (e.val : Int) := by decide

/-- Row number e as a word. -/
theorem rowIds_apply (e : Fin 24) : RefTerm.rowIds (ix1 e) = BitVec.ofNat 32 e.val := rfl

/-- The wrapped column of row numbers at (e, 0) is row number e: it is not negative, so the wrap leaves it. -/
theorem rowCol_apply (e : Fin 24) : RefTerm.rowCol (ix2 e 0) = BitVec.ofNat 32 e.val := by
  unfold RefTerm.rowCol
  rw [Cert.Proof.TakeRows.bcast_axis0_apply, select_apply]
  show Scalar.select (IntOp.cmpi .slt (RefTerm.rowIds (ix1 e)) 0#32) (IntOp.addi (RefTerm.rowIds (ix1 e)) 100#32)
    (RefTerm.rowIds (ix1 e)) = _
  rw [Cert.Proof.TakeRows.wrap_of_nonneg _ _ (by rw [rowIds_apply, toInt_row]; omega), rowIds_apply]

/-- The fill-mode take of rows 0..23 at (e, q) is the table at (e, q). -/
theorem takeRows_apply (tbl : Vec Ideal S100x768 .f32) (e : Fin 24) (q : Fin 768) :
    RefTerm.takeRows (F := Ideal) tbl (ix2 e q) = tbl (ix2 ⟨e.val, by omega⟩ q) := by
  have hsel : RefTerm.takeRows (F := Ideal) tbl (ix2 e q)
      = Host.gather gather_S100x768_S24x1_S24x768_1_0_n_n_0_1_1768 tbl RefTerm.rowCol (ix2 e q) :=
    Cert.Proof.TakeRows.take_fill_apply (α := EReal) (E := 24) (C := 768) RefTerm.rowIds
      (broadcastInDim S24 ![] bcast_S_S24 (constantI S_ 32 0#32))
      (broadcastInDim S24 ![] bcast_S_S24 (constantI S_ 32 100#32))
      (broadcastInDim S24x1 ![] bcast_S_S24x1 (constantI S_ 32 0#32))
      (broadcastInDim S24x1 ![0, 1] bcast_S1x1_S24x1_0_1 (broadcastInDim S1x1 ![1] bcast_S1_S1x1_1 (constantI S1 32 99#32)))
      (constantI S_ 1 1#1)
      (Host.gather gather_S100x768_S24x1_S24x768_1_0_n_n_0_1_1768 tbl RefTerm.rowCol)
      (broadcastInDim S24x768 ![] bcast_S_S24x768 (constant (F := Ideal) S_ .f32 0x7FC00000#32))
      bcast_S24_S24x1_0 reducesTo_S24x1_S24_d1 h_S_ bcast_S24_S24x768_0 e q 99#32 rfl rfl rfl rfl
      (by rw [rowIds_apply, toInt_row]; omega)
      (by rw [rowIds_apply, toInt_row]; have := e.isLt; show (e.val : Int) ≤ 99; omega)
  rw [hsel]
  refine (Cert.Bridge.GS.gather_apply_of_inRange gather_S100x768_S24x1_S24x768_1_0_n_n_0_1_1768 rfl rfl rfl rfl rfl
    tbl RefTerm.rowCol e q (by rw [rowCol_apply, toInt_row]; omega)
    (by rw [rowCol_apply, toInt_row]; have := e.isLt; omega)).trans ?_
  congr 2
  refine Fin.ext ?_
  show (RefTerm.rowCol (ix2 e 0)).toInt.toNat = e.val
  rw [rowCol_apply, toInt_row]
  exact Int.toNat_natCast _

/-! ## The two positional terms and the shifted video -/

/-- The take re-read as [1, 768, 24, 1] and broadcast, at (b, c, h, w), is the table's term at (c, h). -/
theorem rowTerm_apply (rt : Vec Ideal S100x768 .f32) (b : Fin 128) (c : Fin 768) (h w : Fin 24) :
    broadcastInDim S128x768x24x24 ![0, 1, 2, 3] bcast_S1x768x24x1_S128x768x24x24_0_1_2_3
      (shapeCast S1x768x24x1 (RefTerm.takeRows (F := Ideal) rt) shapeCasts_S24x768_S1x768x24x1) (ix4 b c h w)
      = Cert.Norm.tab rt c h := by
  have hc := c.isLt
  have hh := h.isLt
  refine (broadcastInDim_apply ![0, 1, 2, 3] _ _ (ix4 b c h w) (ix4 (0 : Fin 1) c h (0 : Fin 1)) fun a => ?_).trans ?_
  · match a with
    | ⟨0, _⟩ => rfl
    | ⟨1, _⟩ => rfl
    | ⟨2, _⟩ => rfl
    | ⟨3, _⟩ => rfl
  refine (shapeCast_apply _ _ (ix4 (0 : Fin 1) c h (0 : Fin 1))
    (ix2 (⟨(24 * c.val + h.val) / 768, by omega⟩ : Fin 24) (⟨(24 * c.val + h.val) % 768, Nat.mod_lt _ (by norm_num)⟩ : Fin 768))
    ?_).trans ?_
  · rw [Shape.rowMajor_val_two, Shape.rowMajor_val_four]
    show (24 * c.val + h.val) / 768 * 768 + (24 * c.val + h.val) % 768 = (((0 * 768 + c.val) * 24 + h.val) * 1 + 0)
    omega
  rw [takeRows_apply]
  rfl

/-- The take re-read as [1, 768, 1, 24] and broadcast, at (b, c, h, w), is the table's term at (c, w). -/
theorem colTerm_apply (ct : Vec Ideal S100x768 .f32) (b : Fin 128) (c : Fin 768) (h w : Fin 24) :
    broadcastInDim S128x768x24x24 ![0, 1, 2, 3] bcast_S1x768x1x24_S128x768x24x24_0_1_2_3
      (shapeCast S1x768x1x24 (RefTerm.takeRows (F := Ideal) ct) shapeCasts_S24x768_S1x768x1x24) (ix4 b c h w)
      = Cert.Norm.tab ct c w := by
  have hc := c.isLt
  have hw := w.isLt
  refine (broadcastInDim_apply ![0, 1, 2, 3] _ _ (ix4 b c h w) (ix4 (0 : Fin 1) c (0 : Fin 1) w) fun a => ?_).trans ?_
  · match a with
    | ⟨0, _⟩ => rfl
    | ⟨1, _⟩ => rfl
    | ⟨2, _⟩ => rfl
    | ⟨3, _⟩ => rfl
  refine (shapeCast_apply _ _ (ix4 (0 : Fin 1) c (0 : Fin 1) w)
    (ix2 (⟨(24 * c.val + w.val) / 768, by omega⟩ : Fin 24) (⟨(24 * c.val + w.val) % 768, Nat.mod_lt _ (by norm_num)⟩ : Fin 768))
    ?_).trans ?_
  · rw [Shape.rowMajor_val_two, Shape.rowMajor_val_four]
    show (24 * c.val + w.val) / 768 * 768 + (24 * c.val + w.val) % 768 = (((0 * 768 + c.val) * 1 + 0) * 24 + w.val)
    omega
  rw [takeRows_apply]
  rfl

/-- The shifted video at (b, c, h, w) is channel c's slab at (b, (h, w)). -/
theorem shifted_apply (v : Vec Ideal S128x768x24x24 .f32) (rt ct : Vec Ideal S100x768 .f32)
    (b : Fin 128) (c : Fin 768) (h w : Fin 24) :
    RefTerm.shifted (F := Ideal) v rt ct (ix4 b c h w) = Cert.Norm.slab v rt ct c b (h, w) := by
  unfold RefTerm.shifted
  rw [addf_apply, addf_apply, rowTerm_apply, colTerm_apply]
  rfl

/-! ## Per-channel arrays read at an index -/

/-- A per-channel array [1, 768, 1, 1] broadcast to the video's shape, at (b, c, h, w), is its entry for channel c. -/
theorem bcastChan_apply {α : Type} (y : S1x768x1x1.Idx → α) (b : Fin 128) (c : Fin 768) (h w : Fin 24) :
    broadcastInDim S128x768x24x24 ![0, 1, 2, 3] bcast_S1x768x1x1_S128x768x24x24_0_1_2_3 y (ix4 b c h w)
      = y (ix4 (0 : Fin 1) c (0 : Fin 1) (0 : Fin 1)) := by
  refine broadcastInDim_apply ![0, 1, 2, 3] _ _ (ix4 b c h w) (ix4 (0 : Fin 1) c (0 : Fin 1) (0 : Fin 1)) fun a => ?_
  match a with
  | ⟨0, _⟩ => rfl
  | ⟨1, _⟩ => rfl
  | ⟨2, _⟩ => rfl
  | ⟨3, _⟩ => rfl

/-- A vector [768] laid along the channel axis of [1, 768, 1, 1], at channel c, is its entry c. -/
theorem bcastVec_apply {α : Type} (r : S768.Idx → α) (c : Fin 768) :
    broadcastInDim S1x768x1x1 ![1] bcast_S768_S1x768x1x1_1 r (ix4 (0 : Fin 1) c (0 : Fin 1) (0 : Fin 1)) = r (ix1 c) := by
  refine broadcastInDim_apply ![1] _ _ (ix4 (0 : Fin 1) c (0 : Fin 1) (0 : Fin 1)) (ix1 c) fun a => ?_
  match a with
  | ⟨0, _⟩ => rfl

/-- A rank-zero array spread over [1, 768, 1, 1] is its one entry everywhere. -/
theorem bcastScalar_apply {α : Type} (r : S_.Idx → α) (j : S1x768x1x1.Idx) :
    broadcastInDim S1x768x1x1 ![] bcast_S_S1x768x1x1 r j = r ix0 :=
  congrArg r (eq_ix0 _)

/-- A vector [768] re-read as [1, 768, 1, 1], at channel c, is its entry c. -/
theorem castVec_apply {α : Type} (r : S768.Idx → α) (c : Fin 768) :
    shapeCast S1x768x1x1 r shapeCasts_S768_S1x768x1x1 (ix4 (0 : Fin 1) c (0 : Fin 1) (0 : Fin 1)) = r (ix1 c) := by
  refine shapeCast_apply _ _ (ix4 (0 : Fin 1) c (0 : Fin 1) (0 : Fin 1)) (ix1 c) ?_
  rw [Shape.rowMajor_val_one, Shape.rowMajor_val_four]
  show c.val = (((0 * 768 + c.val) * 1 + 0) * 1 + 0)
  omega

theorem hostDivf_apply {s : Shape} (a b : FVec Ideal s .f32) (i : s.Idx) : Host.divf a b i = Ideal.div (a i) (b i) := rfl

theorem hostSqrt_apply {s : Shape} (a : FVec Ideal s .f32) (i : s.Idx) : Host.sqrt a i = Ideal.sqrt (a i) := rfl

/-! ## The host sums -/

/-- The host sum over batch and image at channel c is the double sum of channel c's entries. -/
theorem reduce_apply (x : Vec Ideal S128x768x24x24 .f32) (c : Fin 768) :
    Host.reduceAdd (F := Ideal) x (constant (F := Ideal) S_ .f32 0x00000000#32) reducesTo_S128x768x24x24_S768_d0_2_3 h_S_ (ix1 c)
      = ∑ a : Fin 128, ∑ k : Fin 24 × Fin 24, x (ix4 a c k.1 k.2) := by
  show Ideal.hostReduceAdd reducesTo_S128x768x24x24_S768_d0_2_3 x (Ideal.ofBits .f32 0x00000000#32) (ix1 c) = _
  unfold Ideal.hostReduceAdd
  rw [Ideal.ofBits_zero_f32, zero_add]
  refine Cert.Sums.sum_filter_axis1_of4 x _ c fun i => ?_
  have hd : (reducesTo_S128x768x24x24_S768_d0_2_3.drop i 0 : Nat) = i 1 :=
    Shape.ReducesTo.drop_apply_val_of_eq reducesTo_S128x768x24x24_S768_d0_2_3 i 0 1
  constructor
  · intro hi
    rw [← hd, hi]
  · intro hi
    rw [eq_ix1 (reducesTo_S128x768x24x24_S768_d0_2_3.drop i)]
    congr 1
    exact Fin.ext (hd.trans hi)

/-- The per-channel mean of an array whose channel-c entries are a slab xs c is that slab's mean. -/
theorem chanMean_apply (x : Vec Ideal S128x768x24x24 .f32) (xs : Fin 768 → Fin 128 → Fin 24 × Fin 24 → EReal)
    (hx : ∀ (b : Fin 128) (c : Fin 768) (h w : Fin 24), x (ix4 b c h w) = xs c b (h, w)) (c : Fin 768) :
    RefTerm.chanMean (F := Ideal) x (ix4 (0 : Fin 1) c (0 : Fin 1) (0 : Fin 1)) = Cert.Norm.mean (xs c) := by
  unfold RefTerm.chanMean
  rw [hostDivf_apply, bcastVec_apply, bcastScalar_apply, reduce_apply, constant_apply]
  unfold Cert.Norm.mean Cert.Norm.total
  refine congrArg (Ideal.div · Cert.Norm.cnt) ?_
  exact Finset.sum_congr rfl fun a _ => Finset.sum_congr rfl fun k _ => hx a c k.1 k.2

/-! ## The variance's divisor and the variance -/

/-- The divisor of the variance is the count: the degrees of freedom are zero. -/
theorem varDen_apply (j : S_.Idx) : RefTerm.varDen (F := Ideal) j = Cert.Norm.cnt := by
  unfold RefTerm.varDen
  rw [subf_apply, constant_apply, sitofp_apply]
  show Cert.Norm.cnt - (((0#32 : BitVec 32).toInt : ℝ) : EReal) = Cert.Norm.cnt
  rw [Cert.Proof.TakeRows.toInt_zero32, Int.cast_zero, EReal.coe_zero, sub_zero]

/-- The count is positive, so the test of the divisor against zero is 1. -/
theorem cmp_cnt : FloatOps.cmpf (F := Ideal) (φ := .f32) .ogt Cert.Norm.cnt (Ideal.ofBits .f32 0x00000000#32) = 1#1 := by
  rw [Ideal.cmpf_def, Ideal.ofBits_zero_f32]
  have h : (0 : EReal) < Cert.Norm.cnt := by
    rw [Cert.Norm.cnt_eq]; exact_mod_cast (by norm_num : (0 : ℝ) < 73728)
  simp [Ideal.cmp, h]

/-- The per-channel variance of an array whose channel-c entries are a slab xs c is that slab's variance:
    the divisor is positive, so the select takes the quotient. -/
theorem chanVar_apply (x : Vec Ideal S128x768x24x24 .f32) (xs : Fin 768 → Fin 128 → Fin 24 × Fin 24 → EReal)
    (hx : ∀ (b : Fin 128) (c : Fin 768) (h w : Fin 24), x (ix4 b c h w) = xs c b (h, w)) (c : Fin 768) :
    RefTerm.chanVar (F := Ideal) x (ix4 (0 : Fin 1) c (0 : Fin 1) (0 : Fin 1)) = Cert.Norm.var (xs c) := by
  unfold RefTerm.chanVar
  rw [select_apply, bcastScalar_apply, cmpf_apply, varDen_apply, constant_apply, cmp_cnt, select_one,
    hostDivf_apply, bcastVec_apply, bcastScalar_apply, varDen_apply, reduce_apply]
  unfold Cert.Norm.var Cert.Norm.total Cert.Norm.cen
  refine congrArg (Ideal.div · Cert.Norm.cnt) ?_
  refine Finset.sum_congr rfl fun a _ => Finset.sum_congr rfl fun k _ => ?_
  rw [mulf_apply, subf_apply, bcastChan_apply, chanMean_apply x xs hx, hx]

/-! ## The normalisation -/

/-- The reference's normalisation of an array whose channel-c entries are a slab xs c, at (b, c, h, w), is that
    slab's normalisation by gamma c and beta c at (b, (h, w)). -/
theorem normalize_apply (x : Vec Ideal S128x768x24x24 .f32) (xs : Fin 768 → Fin 128 → Fin 24 × Fin 24 → EReal)
    (hx : ∀ (b : Fin 128) (c : Fin 768) (h w : Fin 24), x (ix4 b c h w) = xs c b (h, w))
    (g be : Vec Ideal S768 .f32) (b : Fin 128) (c : Fin 768) (h w : Fin 24) :
    RefTerm.normalize (F := Ideal) x g be (ix4 b c h w)
      = Cert.Norm.bnR (xs c) (g (ix1 c)) (be (ix1 c)) b (h, w) := by
  unfold RefTerm.normalize
  rw [addf_apply, mulf_apply, hostDivf_apply, subf_apply, bcastChan_apply, bcastChan_apply, bcastChan_apply,
    bcastChan_apply, hostSqrt_apply, addf_apply, bcastScalar_apply, constant_apply, castVec_apply, castVec_apply,
    chanMean_apply x xs hx, chanVar_apply x xs hx, hx]
  rfl

/-- The reference's term at the ideal instance is the result array. -/
theorem refOut_eq (v : Vec Ideal S128x768x24x24 .f32) (rt ct : Vec Ideal S100x768 .f32) (g be : Vec Ideal S768 .f32) :
    RefTerm.refOut (F := Ideal) v rt ct g be = Cert.Norm.G v rt ct g be := by
  funext i
  obtain ⟨b, c, h, w, rfl⟩ : ∃ (b : Fin 128) (c : Fin 768) (h w : Fin 24), i = ix4 b c h w :=
    ⟨i 0, i 1, i 2, i 3, eq_ix4 i⟩
  rw [Cert.Norm.G_apply]
  unfold RefTerm.refOut
  exact normalize_apply _ (fun c => Cert.Norm.slab v rt ct c) (shifted_apply v rt ct) g be b c h w

end Cert.ReferenceIdeal.RefValue

end
-- ==== Proof.lean ====
/-
  The certificate: a fused positional-embedding add and training-mode batch normalisation over
  [128, 768, 24, 24], computed by a one-region kernel program (48 grid points of 16 channels each) and by a
  plain host program, give the same array over the extended reals.

  Both compute, per channel c, the slab x[b, h, w] = video[b, c, h, w] + R[c, h] + C[c, w] (R and C the first
  24 rows of the row and column tables re-read row-major as [768, 24]), its mean and biased variance over the
  73728 entries, and (x - mean) scaled by gamma[c] over the square root of (variance + eps), plus beta[c]. The
  kernel multiplies by gamma[c] * rsqrt(variance + eps) where the host divides by sqrt(variance + eps) and then
  multiplies by gamma[c]: equal on all extended reals, since variance + eps is positive (Spec.lean). The kernel
  works in the flat layout [128, 768, 576] and adds the two table terms to each other first: the layouts are
  bridged by the position bijection (h, w) to 24 h + w, and the sums by associativity.

  The two frames of the kernel programs are the generated ones; the reference's frame is its run with the
  result dropped; the ideal pass rewrote nothing, so preserves is trivial.
-/
import proofs.«137005_g2362232013395_cont_8to1_2029_2_alg».proof.Defs
import proofs.«137005_g2362232013395_cont_8to1_2029_2_alg».proof.Proof.Gen.Kernel
import proofs.«137005_g2362232013395_cont_8to1_2029_2_alg».proof.Proof.Gen.Kernel.Frame
import proofs.«137005_g2362232013395_cont_8to1_2029_2_alg».proof.Proof.Gen.KernelIdeal
import proofs.«137005_g2362232013395_cont_8to1_2029_2_alg».proof.Proof.Gen.KernelIdeal.Frame
import proofs.«137005_g2362232013395_cont_8to1_2029_2_alg».proof.Proof.Gen.ReferenceIdeal
import proofs.«137005_g2362232013395_cont_8to1_2029_2_alg».proof.Proof.Gen.Pre_finite_inputs
import proofs.«137005_g2362232013395_cont_8to1_2029_2_alg».proof.Proof.KernValue
import proofs.«137005_g2362232013395_cont_8to1_2029_2_alg».proof.Proof.RefRun
import proofs.«137005_g2362232013395_cont_8to1_2029_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with their result buffer at the array G of the (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
